-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x64x64 : Shape := ⟨4, ![32, 256, 64, 64]⟩
abbrev S32x2048x2 : Shape := ⟨3, ![32, 2048, 2]⟩
abbrev S_ : Shape := ⟨0, ![]⟩

class Facts : Prop where
  bcast_S_S32x256x64x64 : S_.BroadcastsInDim S32x256x64x64 (![] : Fin 0 → Fin S32x256x64x64.rank)
  reducesTo_S32x256x64x64_S_d0_1_2_3 : S32x256x64x64.ReducesTo [0, 1, 2, 3] S_
  h_S_ : 0 < S_.numel
  bcast_S_S32x2048x2 : S_.BroadcastsInDim S32x2048x2 (![] : Fin 0 → Fin S32x2048x2.rank)
  reducesTo_S32x2048x2_S_d0_1_2 : S32x2048x2.ReducesTo [0, 1, 2] S_

variable [Facts]

def fn {F : FTy → Type} [FloatOps F] (main_arg0 : FVec F S32x256x64x64 .f32) (main_arg1 : FVec F S32x2048x2 .f32) : IVec S_ 1 :=
  let main_v0 : FVec F S32x256x64x64 .f32 := Host.absf main_arg0
  let main_cst : FVec F S_ .f32 := constant S_ .f32 0x7F800000#32
  let main_v1 : FVec F S32x256x64x64 .f32 := broadcastInDim S32x256x64x64 ![] bcast_S_S32x256x64x64 main_cst
  let main_v2 : IVec S32x256x64x64 1 := cmpf .olt main_v0 main_v1
  let main_c : IVec S_ 1 := constantI S_ 1 1#1
  let main_v3 : IVec S_ 1 := (fun x v => Host.reduce IntOp.andi x v reducesTo_S32x256x64x64_S_d0_1_2_3 h_S_) main_v2 main_c
  let main_v4 : FVec F S32x2048x2 .f32 := Host.absf main_arg1
  let main_cst_0 : FVec F S_ .f32 := constant S_ .f32 0x7F800000#32
  let main_v5 : FVec F S32x2048x2 .f32 := broadcastInDim S32x2048x2 ![] bcast_S_S32x2048x2 main_cst_0
  let main_v6 : IVec S32x2048x2 1 := cmpf .olt main_v4 main_v5
  let main_c_1 : IVec S_ 1 := constantI S_ 1 1#1
  let main_v7 : IVec S_ 1 := (fun x v => Host.reduce IntOp.andi x v reducesTo_S32x2048x2_S_d0_1_2 h_S_) main_v6 main_c_1
  let main_v8 : IVec S_ 1 := andi main_v3 main_v7
  main_v8
-- ==== Kernel.lean ====
abbrev S32x256x64x64 : Shape := ⟨4, ![32, 256, 64, 64]⟩
abbrev S32x2048x2 : Shape := ⟨3, ![32, 2048, 2]⟩
abbrev S_ : Shape := ⟨0, ![]⟩
abbrev S32x2048x1 : Shape := ⟨3, ![32, 2048, 1]⟩
abbrev S32x2048 : Shape := ⟨2, ![32, 2048]⟩
abbrev S32x1x2048 : Shape := ⟨3, ![32, 1, 2048]⟩
abbrev S32x256x4096 : Shape := ⟨3, ![32, 256, 4096]⟩
abbrev S32x2048x256 : Shape := ⟨3, ![32, 2048, 256]⟩
abbrev S1x256x4096 : Shape := ⟨3, ![1, 256, 4096]⟩
abbrev S1x1x256 : Shape := ⟨3, ![1, 1, 256]⟩
abbrev S1x256x256 : Shape := ⟨3, ![1, 256, 256]⟩
abbrev S4096x256 : Shape := ⟨2, ![4096, 256]⟩
abbrev S1x256 : Shape := ⟨2, ![1, 256]⟩
abbrev S256x4096 : Shape := ⟨2, ![256, 4096]⟩
abbrev S256x256 : Shape := ⟨2, ![256, 256]⟩

abbrev nBuf : Space → Nat
  | .hbm => 73
  | .vmem => 20
  | .smem => 0
  | _ => 0

abbrev bufTy : (tb : Table) → Fin (tcTables nBuf tb) → BufTy
  | .hbm, ⟨0, _⟩ => ⟨S32x256x64x64, .f32⟩
  | .hbm, ⟨1, _⟩ => ⟨S32x2048x2, .f32⟩
  | .hbm, ⟨2, _⟩ => ⟨S_, .f32⟩
  | .hbm, ⟨3, _⟩ => ⟨S32x2048x2, .f32⟩
  | .hbm, ⟨4, _⟩ => ⟨S32x2048x2, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S32x2048x2, .f32⟩
  | .hbm, ⟨9, _⟩ => ⟨S32x2048x2, .f32⟩
  | .hbm, ⟨10, _⟩ => ⟨S_, .f32⟩
  | .hbm, ⟨11, _⟩ => ⟨S32x2048x2, .f32⟩
  | .hbm, ⟨12, _⟩ => ⟨S32x2048x2, .f32⟩
  | .hbm, ⟨13, _⟩ => ⟨S32x2048x2, .f32⟩
  | .hbm, ⟨14, _⟩ => ⟨S32x2048x2, .i32⟩
  | .hbm, ⟨15, _⟩ => ⟨S32x2048x2, .f32⟩
  | .hbm, ⟨16, _⟩ => ⟨S32x2048x2, .i32⟩
  | .hbm, ⟨17, _⟩ => ⟨S32x2048x1, .i32⟩
  | .hbm, ⟨18, _⟩ => ⟨S32x2048, .i32⟩
  | .hbm, ⟨19, _⟩ => ⟨S32x2048x1, .i32⟩
  | .hbm, ⟨20, _⟩ => ⟨S32x2048, .i32⟩
  | .hbm, ⟨21, _⟩ => ⟨S32x2048x1, .i32⟩
  | .hbm, ⟨22, _⟩ => ⟨S32x2048, .i32⟩
  | .hbm, ⟨23, _⟩ => ⟨S32x2048x1, .i32⟩
  | .hbm, ⟨24, _⟩ => ⟨S32x2048, .i32⟩
  | .hbm, ⟨25, _⟩ => ⟨S32x2048x2, .f32⟩
  | .hbm, ⟨26, _⟩ => ⟨S32x2048x2, .f32⟩
  | .hbm, ⟨27, _⟩ => ⟨S32x2048x1, .f32⟩
  | .hbm, ⟨28, _⟩ => ⟨S32x2048, .f32⟩
  | .hbm, ⟨29, _⟩ => ⟨S32x2048x1, .f32⟩
  | .hbm, ⟨30, _⟩ => ⟨S32x2048, .f32⟩
  | .hbm, ⟨31, _⟩ => ⟨S_, .f32⟩
  | .hbm, ⟨32, _⟩ => ⟨S32x2048, .f32⟩
  | .hbm, ⟨33, _⟩ => ⟨S32x2048, .f32⟩
  | .hbm, ⟨34, _⟩ => ⟨S_, .f32⟩
  | .hbm, ⟨35, _⟩ => ⟨S32x2048, .f32⟩
  | .hbm, ⟨36, _⟩ => ⟨S32x2048, .f32⟩
  | .hbm, ⟨37, _⟩ => ⟨S32x2048, .f32⟩
  | .hbm, ⟨38, _⟩ => ⟨S_, .f32⟩
  | .hbm, ⟨39, _⟩ => ⟨S32x2048, .f32⟩
  | .hbm, ⟨40, _⟩ => ⟨S32x2048, .f32⟩
  | .hbm, ⟨41, _⟩ => ⟨S32x2048, .f32⟩
  | .hbm, ⟨42, _⟩ => ⟨S_, .f32⟩
  | .hbm, ⟨43, _⟩ => ⟨S32x2048, .f32⟩
  | .hbm, ⟨44, _⟩ => ⟨S32x2048, .f32⟩
  | .hbm, ⟨45, _⟩ => ⟨S32x2048, .f32⟩
  | .hbm, ⟨46, _⟩ => ⟨S32x2048, .f32⟩
  | .hbm, ⟨47, _⟩ => ⟨S_, .i32⟩
  | .hbm, ⟨48, _⟩ => ⟨S32x2048, .i32⟩
  | .hbm, ⟨49, _⟩ => ⟨S32x2048, .i32⟩
  | .hbm, ⟨50, _⟩ => ⟨S32x2048, .i32⟩
  | .hbm, ⟨51, _⟩ => ⟨S_, .i32⟩
  | .hbm, ⟨52, _⟩ => ⟨S32x2048, .i32⟩
  | .hbm, ⟨53, _⟩ => ⟨S32x2048, .i32⟩
  | .hbm, ⟨54, _⟩ => ⟨S32x2048, .i32⟩
  | .hbm, ⟨55, _⟩ => ⟨S_, .i32⟩
  | .hbm, ⟨56, _⟩ => ⟨S32x2048, .i32⟩
  | .hbm, ⟨57, _⟩ => ⟨S32x2048, .i32⟩
  | .hbm, ⟨58, _⟩ => ⟨S32x2048, .i32⟩
  | .hbm, ⟨59, _⟩ => ⟨S_, .i32⟩
  | .hbm, ⟨60, _⟩ => ⟨S32x2048, .i32⟩
  | .hbm, ⟨61, _⟩ => ⟨S32x2048, .i32⟩
  | .hbm, ⟨62, _⟩ => ⟨S32x2048, .i32⟩
  | .hbm, ⟨63, _⟩ => ⟨S32x1x2048, .i32⟩
  | .hbm, ⟨64, _⟩ => ⟨S32x1x2048, .i32⟩
  | .hbm, ⟨65, _⟩ => ⟨S32x1x2048, .i32⟩
  | .hbm, ⟨66, _⟩ => ⟨S32x1x2048, .i32⟩
  | .hbm, ⟨67, _⟩ => ⟨S32x1x2048, .f32⟩
  | .hbm, ⟨68, _⟩ => ⟨S32x1x2048, .f32⟩
  | .hbm, ⟨69, _⟩ => ⟨S32x1x2048, .f32⟩
  | .hbm, ⟨70, _⟩ => ⟨S32x1x2048, .f32⟩
  | .hbm, ⟨71, _⟩ => ⟨S32x256x4096, .f32⟩
  | .hbm, ⟨72, _⟩ => ⟨S32x2048x256, .f32⟩
  | .local _ .vmem, ⟨0, _⟩ => ⟨S1x256x4096, .f32⟩
  | .local _ .vmem, ⟨1, _⟩ => ⟨S1x256x4096, .f32⟩
  | .local _ .vmem, ⟨2, _⟩ => ⟨S1x1x256, .i32⟩
  | .local _ .vmem, ⟨3, _⟩ => ⟨S1x1x256, .i32⟩
  | .local _ .vmem, ⟨4, _⟩ => ⟨S1x1x256, .i32⟩
  | .local _ .vmem, ⟨5, _⟩ => ⟨S1x1x256, .i32⟩
  | .local _ .vmem, ⟨6, _⟩ => ⟨S1x1x256, .i32⟩
  | .local _ .vmem, ⟨7, _⟩ => ⟨S1x1x256, .i32⟩
  | .local _ .vmem, ⟨8, _⟩ => ⟨S1x1x256, .i32⟩
  | .local _ .vmem, ⟨9, _⟩ => ⟨S1x1x256, .i32⟩
  | .local _ .vmem, ⟨10, _⟩ => ⟨S1x1x256, .f32⟩
  | .local _ .vmem, ⟨11, _⟩ => ⟨S1x1x256, .f32⟩
  | .local _ .vmem, ⟨12, _⟩ => ⟨S1x1x256, .f32⟩
  | .local _ .vmem, ⟨13, _⟩ => ⟨S1x1x256, .f32⟩
  | .local _ .vmem, ⟨14, _⟩ => ⟨S1x1x256, .f32⟩
  | .local _ .vmem, ⟨15, _⟩ => ⟨S1x1x256, .f32⟩
  | .local _ .vmem, ⟨16, _⟩ => ⟨S1x1x256, .f32⟩
  | .local _ .vmem, ⟨17, _⟩ => ⟨S1x1x256, .f32⟩
  | .local _ .vmem, ⟨18, _⟩ => ⟨S1x256x256, .f32⟩
  | .local _ .vmem, ⟨19, _⟩ => ⟨S1x256x256, .f32⟩
  | _, _ => ⟨S32x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_cst_1 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_c_6 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_c_7 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_c_8 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![32, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x256 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x256 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

class Facts₀ : Prop where
  bcast_S_S32x2048x2 : S_.BroadcastsInDim S32x2048x2 (![] : Fin 0 → Fin S32x2048x2.rank)
  slices_S32x2048x2_S32x2048x1_0_0_0 : S32x2048x2.Slices ![0, 0, 0] S32x2048x1
  shapeCasts_S32x2048x1_S32x2048 : S32x2048x1.ShapeCasts S32x2048
  slices_S32x2048x2_S32x2048x1_0_0_1 : S32x2048x2.Slices ![0, 0, 1] S32x2048x1
  bcast_S_S32x2048 : S_.BroadcastsInDim S32x2048 (![] : Fin 0 → Fin S32x2048.rank)
  bcast_S32x2048_S32x1x2048_0_2 : S32x2048.BroadcastsInDim S32x1x2048 (![0, 2] : Fin 2 → Fin S32x1x2048.rank)
  shapeCasts_S32x256x64x64_S32x256x4096 : S32x256x64x64.ShapeCasts S32x256x4096
  iota_S4096x256_d0_w32 : S4096x256.Iotas .tc 32 [0]
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  broadcasts_S1x256_S4096x256 : S1x256.Broadcasts S4096x256
  shapeCasts_S1x256_S1x256 : S1x256.ShapeCasts S1x256
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  bitsLt_bf16_f32 : FTy.bits .bf16 < FTy.bits .f32
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  shapeCasts_S256x256_S1x256x256 : S256x256.ShapeCasts S1x256x256
  dot_S4096x256_S256x4096_S256x256_0_1_1_0_n_n_wf : DotDims.WF S4096x256 S256x4096 S256x256 [0] [1] [1] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x4096.size a ≤ S32x256x4096.size a
  hwx0_0 : ∀ i : grid0.Coords, EltTy.bits .f32 = 32 ∨ (Rect.block (s := S32x256x4096) S1x256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x256.size a ≤ S32x1x2048.size a
  hwx0_1 : ∀ i : grid0.Coords, EltTy.bits .i32 = 32 ∨ (Rect.block (s := S32x1x2048) S1x1x256.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x256.size a ≤ S32x1x2048.size a
  hwx0_2 : ∀ i : grid0.Coords, EltTy.bits .i32 = 32 ∨ (Rect.block (s := S32x1x2048) S1x1x256.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x256.size a ≤ S32x1x2048.size a
  hwx0_3 : ∀ i : grid0.Coords, EltTy.bits .i32 = 32 ∨ (Rect.block (s := S32x1x2048) S1x1x256.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x256.size a ≤ S32x1x2048.size a
  hwx0_4 : ∀ i : grid0.Coords, EltTy.bits .i32 = 32 ∨ (Rect.block (s := S32x1x2048) S1x1x256.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x256.size a ≤ S32x1x2048.size a
  hwx0_5 : ∀ i : grid0.Coords, EltTy.bits .f32 = 32 ∨ (Rect.block (s := S32x1x2048) S1x1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x256.size a ≤ S32x1x2048.size a
  hwx0_6 : ∀ i : grid0.Coords, EltTy.bits .f32 = 32 ∨ (Rect.block (s := S32x1x2048) S1x1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x256.size a ≤ S32x1x2048.size a
  hwx0_7 : ∀ i : grid0.Coords, EltTy.bits .f32 = 32 ∨ (Rect.block (s := S32x1x2048) S1x1x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1x256.size a ≤ S32x1x2048.size a
  hwx0_8 : ∀ i : grid0.Coords, EltTy.bits .f32 = 32 ∨ (Rect.block (s := S32x1x2048) S1x1x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x256x256.size a ≤ S32x2048x256.size a
  hwx0_9 : ∀ i : grid0.Coords, EltTy.bits .f32 = 32 ∨ (Rect.block (s := S32x2048x256) S1x256x256.size (cc0_transform_9 i) (hinb0_9 i)).WholeWords (EltTy.packing .f32)

variable [Facts₀]

def dot_S4096x256_S256x4096_S256x256_0_1_1_0_n_n : DotDims S4096x256 S256x4096 S256x256 where
  lhsContracting := [0]
  rhsContracting := [1]
  lhsNonContracting := [1]
  rhsNonContracting := [0]
  lhsBatch := []
  rhsBatch := []
  wf := dot_S4096x256_S256x4096_S256x256_0_1_1_0_n_n_wf

abbrev win0_0 : Pipeline.Window sig grid0 :=
  Pipeline.Window.ofSpec (Memref.whole main_v53) S1x256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v45) S1x1x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v46) S1x1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v47) S1x1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v48) S1x1x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v49) S1x1x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v50) S1x1x256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v51) S1x1x256.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v52) S1x1x256.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v54) S1x256x256.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S32x256x64x64 : Shape := ⟨4, ![32, 256, 64, 64]⟩
abbrev S32x2048x2 : Shape := ⟨3, ![32, 2048, 2]⟩
abbrev S_ : Shape := ⟨0, ![]⟩
abbrev S32x2048x1 : Shape := ⟨3, ![32, 2048, 1]⟩
abbrev S32x2048 : Shape := ⟨2, ![32, 2048]⟩
abbrev S32x256x4096 : Shape := ⟨3, ![32, 256, 4096]⟩
abbrev S32x1x2048 : Shape := ⟨3, ![32, 1, 2048]⟩
abbrev S1 : Shape := ⟨1, ![1]⟩
abbrev S1x1x1 : Shape := ⟨3, ![1, 1, 1]⟩
abbrev S32x256x2048 : Shape := ⟨3, ![32, 256, 2048]⟩
abbrev S32x2048x256 : Shape := ⟨3, ![32, 2048, 256]⟩

abbrev nBuf : Space → Nat
  | .hbm => 159
  | .vmem => 0
  | .smem => 0
  | _ => 0

abbrev hbmTy0_0 (i : Nat) : BufTy := match i % 128 with
  | 0 => ⟨S32x256x64x64, .f32⟩
  | 1 => ⟨S32x2048x2, .f32⟩
  | 2 => ⟨S_, .f32⟩
  | 3 => ⟨S32x2048x2, .f32⟩
  | 4 => ⟨S32x2048x2, .f32⟩
  | 5 => ⟨S_, .i32⟩
  | 6 => ⟨S_, .i32⟩
  | 7 => ⟨S_, .f32⟩
  | 8 => ⟨S32x2048x2, .f32⟩
  | 9 => ⟨S32x2048x2, .f32⟩
  | 10 => ⟨S_, .f32⟩
  | 11 => ⟨S32x2048x2, .f32⟩
  | 12 => ⟨S32x2048x2, .f32⟩
  | 13 => ⟨S32x2048x2, .f32⟩
  | 14 => ⟨S32x2048x2, .i32⟩
  | 15 => ⟨S32x2048x2, .f32⟩
  | 16 => ⟨S32x2048x2, .i32⟩
  | 17 => ⟨S32x2048x1, .i32⟩
  | 18 => ⟨S32x2048, .i32⟩
  | 19 => ⟨S32x2048x1, .i32⟩
  | 20 => ⟨S32x2048, .i32⟩
  | 21 => ⟨S32x2048x1, .i32⟩
  | 22 => ⟨S32x2048, .i32⟩
  | 23 => ⟨S32x2048x1, .i32⟩
  | 24 => ⟨S32x2048, .i32⟩
  | 25 => ⟨S32x256x4096, .f32⟩
  | 26 => ⟨S_, .i32⟩
  | 27 => ⟨S32x2048, .i32⟩
  | 28 => ⟨S32x2048, .i32⟩
  | 29 => ⟨S32x2048, .i32⟩
  | 30 => ⟨S32x1x2048, .i32⟩
  | 31 => ⟨S_, .i32⟩
  | 32 => ⟨S32x1x2048, .i32⟩
  | 33 => ⟨S32x1x2048, .i1⟩
  | 34 => ⟨S_, .i32⟩
  | 35 => ⟨S32x1x2048, .i32⟩
  | 36 => ⟨S32x1x2048, .i32⟩
  | 37 => ⟨S32x1x2048, .i32⟩
  | 38 => ⟨S32x2048x1, .i32⟩
  | 39 => ⟨S1, .i32⟩
  | 40 => ⟨S_, .i32⟩
  | 41 => ⟨S32x2048x1, .i32⟩
  | 42 => ⟨S32x2048x1, .i1⟩
  | 43 => ⟨S1x1x1, .i32⟩
  | 44 => ⟨S32x2048x1, .i32⟩
  | 45 => ⟨S32x2048x1, .i1⟩
  | 46 => ⟨S32x2048x1, .i1⟩
  | 47 => ⟨S_, .i1⟩
  | 48 => ⟨S32x2048, .i1⟩
  | 49 => ⟨S32x256x2048, .f32⟩
  | 50 => ⟨S32x256x2048, .i1⟩
  | 51 => ⟨S_, .f32⟩
  | 52 => ⟨S32x256x2048, .f32⟩
  | 53 => ⟨S32x256x2048, .f32⟩
  | 54 => ⟨S32x2048x256, .f32⟩
  | 55 => ⟨S_, .i32⟩
  | 56 => ⟨S32x2048, .i32⟩
  | 57 => ⟨S32x2048, .i32⟩
  | 58 => ⟨S32x2048, .i32⟩
  | 59 => ⟨S32x1x2048, .i32⟩
  | 60 => ⟨S_, .i32⟩
  | 61 => ⟨S32x1x2048, .i32⟩
  | 62 => ⟨S32x1x2048, .i1⟩
  | 63 => ⟨S_, .i32⟩
  | 64 => ⟨S32x1x2048, .i32⟩
  | 65 => ⟨S32x1x2048, .i32⟩
  | 66 => ⟨S32x1x2048, .i32⟩
  | 67 => ⟨S32x2048x1, .i32⟩
  | 68 => ⟨S1, .i32⟩
  | 69 => ⟨S_, .i32⟩
  | 70 => ⟨S32x2048x1, .i32⟩
  | 71 => ⟨S32x2048x1, .i1⟩
  | 72 => ⟨S1x1x1, .i32⟩
  | 73 => ⟨S32x2048x1, .i32⟩
  | 74 => ⟨S32x2048x1, .i1⟩
  | 75 => ⟨S32x2048x1, .i1⟩
  | 76 => ⟨S_, .i1⟩
  | 77 => ⟨S32x2048, .i1⟩
  | 78 => ⟨S32x256x2048, .f32⟩
  | 79 => ⟨S32x256x2048, .i1⟩
  | 80 => ⟨S_, .f32⟩
  | 81 => ⟨S32x256x2048, .f32⟩
  | 82 => ⟨S32x256x2048, .f32⟩
  | 83 => ⟨S32x2048x256, .f32⟩
  | 84 => ⟨S_, .i32⟩
  | 85 => ⟨S32x2048, .i32⟩
  | 86 => ⟨S32x2048, .i32⟩
  | 87 => ⟨S32x2048, .i32⟩
  | 88 => ⟨S32x1x2048, .i32⟩
  | 89 => ⟨S_, .i32⟩
  | 90 => ⟨S32x1x2048, .i32⟩
  | 91 => ⟨S32x1x2048, .i1⟩
  | 92 => ⟨S_, .i32⟩
  | 93 => ⟨S32x1x2048, .i32⟩
  | 94 => ⟨S32x1x2048, .i32⟩
  | 95 => ⟨S32x1x2048, .i32⟩
  | 96 => ⟨S32x2048x1, .i32⟩
  | 97 => ⟨S1, .i32⟩
  | 98 => ⟨S_, .i32⟩
  | 99 => ⟨S32x2048x1, .i32⟩
  | 100 => ⟨S32x2048x1, .i1⟩
  | 101 => ⟨S1x1x1, .i32⟩
  | 102 => ⟨S32x2048x1, .i32⟩
  | 103 => ⟨S32x2048x1, .i1⟩
  | 104 => ⟨S32x2048x1, .i1⟩
  | 105 => ⟨S_, .i1⟩
  | 106 => ⟨S32x2048, .i1⟩
  | 107 => ⟨S32x256x2048, .f32⟩
  | 108 => ⟨S32x256x2048, .i1⟩
  | 109 => ⟨S_, .f32⟩
  | 110 => ⟨S32x256x2048, .f32⟩
  | 111 => ⟨S32x256x2048, .f32⟩
  | 112 => ⟨S32x2048x256, .f32⟩
  | 113 => ⟨S_, .i32⟩
  | 114 => ⟨S32x2048, .i32⟩
  | 115 => ⟨S32x2048, .i32⟩
  | 116 => ⟨S32x2048, .i32⟩
  | 117 => ⟨S32x1x2048, .i32⟩
  | 118 => ⟨S_, .i32⟩
  | 119 => ⟨S32x1x2048, .i32⟩
  | 120 => ⟨S32x1x2048, .i1⟩
  | 121 => ⟨S_, .i32⟩
  | 122 => ⟨S32x1x2048, .i32⟩
  | 123 => ⟨S32x1x2048, .i32⟩
  | 124 => ⟨S32x1x2048, .i32⟩
  | 125 => ⟨S32x2048x1, .i32⟩
  | 126 => ⟨S1, .i32⟩
  | 127 => ⟨S_, .i32⟩
  | _ => ⟨S32x256x64x64, .f32⟩

abbrev hbmTy0_1 (i : Nat) : BufTy := match i % 128 with
  | 0 => ⟨S32x2048x1, .i32⟩
  | 1 => ⟨S32x2048x1, .i1⟩
  | 2 => ⟨S1x1x1, .i32⟩
  | 3 => ⟨S32x2048x1, .i32⟩
  | 4 => ⟨S32x2048x1, .i1⟩
  | 5 => ⟨S32x2048x1, .i1⟩
  | 6 => ⟨S_, .i1⟩
  | 7 => ⟨S32x2048, .i1⟩
  | 8 => ⟨S32x256x2048, .f32⟩
  | 9 => ⟨S32x256x2048, .i1⟩
  | 10 => ⟨S_, .f32⟩
  | 11 => ⟨S32x256x2048, .f32⟩
  | 12 => ⟨S32x256x2048, .f32⟩
  | 13 => ⟨S32x2048x256, .f32⟩
  | 14 => ⟨S32x2048x2, .f32⟩
  | 15 => ⟨S32x2048x2, .f32⟩
  | 16 => ⟨S32x2048x256, .f32⟩
  | 17 => ⟨S32x2048x1, .f32⟩
  | 18 => ⟨S32x2048x256, .f32⟩
  | 19 => ⟨S32x2048x256, .f32⟩
  | 20 => ⟨S32x2048x256, .f32⟩
  | 21 => ⟨S32x2048x256, .f32⟩
  | 22 => ⟨S32x2048x1, .f32⟩
  | 23 => ⟨S32x2048x256, .f32⟩
  | 24 => ⟨S32x2048x256, .f32⟩
  | 25 => ⟨S32x2048x256, .f32⟩
  | 26 => ⟨S32x2048x256, .f32⟩
  | 27 => ⟨S32x2048x1, .f32⟩
  | 28 => ⟨S32x2048x256, .f32⟩
  | 29 => ⟨S32x2048x256, .f32⟩
  | 30 => ⟨S32x2048x256, .f32⟩
  | _ => ⟨S32x256x64x64, .f32⟩

abbrev hbmTy (i : Nat) : BufTy := match i / 128 with
  | 0 => hbmTy0_0 i
  | 1 => hbmTy0_1 i
  | _ => ⟨S32x256x64x64, .f32⟩

abbrev bufTy : (tb : Table) → Fin (tcTables nBuf tb) → BufTy
  | .hbm, ⟨i, _⟩ => hbmTy i
  | _, _ => ⟨S32x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_c_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_call1_c : Ref sig .tc := ⟨.hbm, 31, rfl⟩
abbrev main_call1_v0 : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_c_1 : Ref sig .tc := ⟨.hbm, 39, rfl⟩
abbrev main_call1_c_2 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_3 : Ref sig .tc := ⟨.hbm, 47, rfl⟩
abbrev main_call1_v12 : Ref sig .tc := ⟨.hbm, 48, rfl⟩
abbrev main_call1_v13 : Ref sig .tc := ⟨.hbm, 49, rfl⟩
abbrev main_call1_v14 : Ref sig .tc := ⟨.hbm, 50, rfl⟩
abbrev main_call1_cst : Ref sig .tc := ⟨.hbm, 51, rfl⟩
abbrev main_call1_v15 : Ref sig .tc := ⟨.hbm, 52, rfl⟩
abbrev main_v20 : Ref sig .tc := ⟨.hbm, 53, rfl⟩
abbrev main_v21 : Ref sig .tc := ⟨.hbm, 54, rfl⟩
abbrev main_c_2 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_call2_c : Ref sig .tc := ⟨.hbm, 60, rfl⟩
abbrev main_call2_v0 : Ref sig .tc := ⟨.hbm, 61, rfl⟩
abbrev main_call2_v1 : Ref sig .tc := ⟨.hbm, 62, rfl⟩
abbrev main_call2_c_0 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_call2_v5 : Ref sig .tc := ⟨.hbm, 67, rfl⟩
abbrev main_call2_c_1 : Ref sig .tc := ⟨.hbm, 68, rfl⟩
abbrev main_call2_c_2 : Ref sig .tc := ⟨.hbm, 69, rfl⟩
abbrev main_call2_v6 : Ref sig .tc := ⟨.hbm, 70, rfl⟩
abbrev main_call2_v7 : Ref sig .tc := ⟨.hbm, 71, rfl⟩
abbrev main_call2_v8 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_c_3 : Ref sig .tc := ⟨.hbm, 76, rfl⟩
abbrev main_call2_v12 : Ref sig .tc := ⟨.hbm, 77, rfl⟩
abbrev main_call2_v13 : Ref sig .tc := ⟨.hbm, 78, rfl⟩
abbrev main_call2_v14 : Ref sig .tc := ⟨.hbm, 79, rfl⟩
abbrev main_call2_cst : Ref sig .tc := ⟨.hbm, 80, rfl⟩
abbrev main_call2_v15 : Ref sig .tc := ⟨.hbm, 81, rfl⟩
abbrev main_v26 : Ref sig .tc := ⟨.hbm, 82, rfl⟩
abbrev main_v27 : Ref sig .tc := ⟨.hbm, 83, rfl⟩
abbrev main_c_3 : Ref sig .tc := ⟨.hbm, 84, rfl⟩
abbrev main_v28 : Ref sig .tc := ⟨.hbm, 85, rfl⟩
abbrev main_v29 : Ref sig .tc := ⟨.hbm, 86, rfl⟩
abbrev main_v30 : Ref sig .tc := ⟨.hbm, 87, rfl⟩
abbrev main_v31 : Ref sig .tc := ⟨.hbm, 88, rfl⟩
abbrev main_call3_c : Ref sig .tc := ⟨.hbm, 89, rfl⟩
abbrev main_call3_v0 : Ref sig .tc := ⟨.hbm, 90, rfl⟩
abbrev main_call3_v1 : Ref sig .tc := ⟨.hbm, 91, rfl⟩
abbrev main_call3_c_0 : Ref sig .tc := ⟨.hbm, 92, rfl⟩
abbrev main_call3_v2 : Ref sig .tc := ⟨.hbm, 93, rfl⟩
abbrev main_call3_v3 : Ref sig .tc := ⟨.hbm, 94, rfl⟩
abbrev main_call3_v4 : Ref sig .tc := ⟨.hbm, 95, rfl⟩
abbrev main_call3_v5 : Ref sig .tc := ⟨.hbm, 96, rfl⟩
abbrev main_call3_c_1 : Ref sig .tc := ⟨.hbm, 97, rfl⟩
abbrev main_call3_c_2 : Ref sig .tc := ⟨.hbm, 98, rfl⟩
abbrev main_call3_v6 : Ref sig .tc := ⟨.hbm, 99, rfl⟩
abbrev main_call3_v7 : Ref sig .tc := ⟨.hbm, 100, rfl⟩
abbrev main_call3_v8 : Ref sig .tc := ⟨.hbm, 101, rfl⟩
abbrev main_call3_v9 : Ref sig .tc := ⟨.hbm, 102, rfl⟩
abbrev main_call3_v10 : Ref sig .tc := ⟨.hbm, 103, rfl⟩
abbrev main_call3_v11 : Ref sig .tc := ⟨.hbm, 104, rfl⟩
abbrev main_call3_c_3 : Ref sig .tc := ⟨.hbm, 105, rfl⟩
abbrev main_call3_v12 : Ref sig .tc := ⟨.hbm, 106, rfl⟩
abbrev main_call3_v13 : Ref sig .tc := ⟨.hbm, 107, rfl⟩
abbrev main_call3_v14 : Ref sig .tc := ⟨.hbm, 108, rfl⟩
abbrev main_call3_cst : Ref sig .tc := ⟨.hbm, 109, rfl⟩
abbrev main_call3_v15 : Ref sig .tc := ⟨.hbm, 110, rfl⟩
abbrev main_v32 : Ref sig .tc := ⟨.hbm, 111, rfl⟩
abbrev main_v33 : Ref sig .tc := ⟨.hbm, 112, rfl⟩
abbrev main_c_4 : Ref sig .tc := ⟨.hbm, 113, rfl⟩
abbrev main_v34 : Ref sig .tc := ⟨.hbm, 114, rfl⟩
abbrev main_v35 : Ref sig .tc := ⟨.hbm, 115, rfl⟩
abbrev main_v36 : Ref sig .tc := ⟨.hbm, 116, rfl⟩
abbrev main_v37 : Ref sig .tc := ⟨.hbm, 117, rfl⟩
abbrev main_call4_c : Ref sig .tc := ⟨.hbm, 118, rfl⟩
abbrev main_call4_v0 : Ref sig .tc := ⟨.hbm, 119, rfl⟩
abbrev main_call4_v1 : Ref sig .tc := ⟨.hbm, 120, rfl⟩
abbrev main_call4_c_0 : Ref sig .tc := ⟨.hbm, 121, rfl⟩
abbrev main_call4_v2 : Ref sig .tc := ⟨.hbm, 122, rfl⟩
abbrev main_call4_v3 : Ref sig .tc := ⟨.hbm, 123, rfl⟩
abbrev main_call4_v4 : Ref sig .tc := ⟨.hbm, 124, rfl⟩
abbrev main_call4_v5 : Ref sig .tc := ⟨.hbm, 125, rfl⟩
abbrev main_call4_c_1 : Ref sig .tc := ⟨.hbm, 126, rfl⟩
abbrev main_call4_c_2 : Ref sig .tc := ⟨.hbm, 127, rfl⟩
abbrev main_call4_v6 : Ref sig .tc := ⟨.hbm, 128, rfl⟩
abbrev main_call4_v7 : Ref sig .tc := ⟨.hbm, 129, rfl⟩
abbrev main_call4_v8 : Ref sig .tc := ⟨.hbm, 130, rfl⟩
abbrev main_call4_v9 : Ref sig .tc := ⟨.hbm, 131, rfl⟩
abbrev main_call4_v10 : Ref sig .tc := ⟨.hbm, 132, rfl⟩
abbrev main_call4_v11 : Ref sig .tc := ⟨.hbm, 133, rfl⟩
abbrev main_call4_c_3 : Ref sig .tc := ⟨.hbm, 134, rfl⟩
abbrev main_call4_v12 : Ref sig .tc := ⟨.hbm, 135, rfl⟩
abbrev main_call4_v13 : Ref sig .tc := ⟨.hbm, 136, rfl⟩
abbrev main_call4_v14 : Ref sig .tc := ⟨.hbm, 137, rfl⟩
abbrev main_call4_cst : Ref sig .tc := ⟨.hbm, 138, rfl⟩
abbrev main_call4_v15 : Ref sig .tc := ⟨.hbm, 139, rfl⟩
abbrev main_v38 : Ref sig .tc := ⟨.hbm, 140, rfl⟩
abbrev main_v39 : Ref sig .tc := ⟨.hbm, 141, rfl⟩
abbrev main_v40 : Ref sig .tc := ⟨.hbm, 142, rfl⟩
abbrev main_v41 : Ref sig .tc := ⟨.hbm, 143, rfl⟩
abbrev main_v42 : Ref sig .tc := ⟨.hbm, 144, rfl⟩
abbrev main_v43 : Ref sig .tc := ⟨.hbm, 145, rfl⟩
abbrev main_v44 : Ref sig .tc := ⟨.hbm, 146, rfl⟩
abbrev main_v45 : Ref sig .tc := ⟨.hbm, 147, rfl⟩
abbrev main_v46 : Ref sig .tc := ⟨.hbm, 148, rfl⟩
abbrev main_v47 : Ref sig .tc := ⟨.hbm, 149, rfl⟩
abbrev main_v48 : Ref sig .tc := ⟨.hbm, 150, rfl⟩
abbrev main_v49 : Ref sig .tc := ⟨.hbm, 151, rfl⟩
abbrev main_v50 : Ref sig .tc := ⟨.hbm, 152, rfl⟩
abbrev main_v51 : Ref sig .tc := ⟨.hbm, 153, rfl⟩
abbrev main_v52 : Ref sig .tc := ⟨.hbm, 154, rfl⟩
abbrev main_v53 : Ref sig .tc := ⟨.hbm, 155, rfl⟩
abbrev main_v54 : Ref sig .tc := ⟨.hbm, 156, rfl⟩
abbrev main_v55 : Ref sig .tc := ⟨.hbm, 157, rfl⟩
abbrev main_v56 : Ref sig .tc := ⟨.hbm, 158, rfl⟩

abbrev nD : Nat := 1
abbrev τ : Topo := Topo.v7x

variable {F : FTy → Type} [FloatOps F]

class Facts₀ : Prop where
  bcast_S_S32x2048x2 : S_.BroadcastsInDim S32x2048x2 (![] : Fin 0 → Fin S32x2048x2.rank)
  slices_S32x2048x2_S32x2048x1_0_0_0 : S32x2048x2.Slices ![0, 0, 0] S32x2048x1
  shapeCasts_S32x2048x1_S32x2048 : S32x2048x1.ShapeCasts S32x2048
  slices_S32x2048x2_S32x2048x1_0_0_1 : S32x2048x2.Slices ![0, 0, 1] S32x2048x1
  shapeCasts_S32x256x64x64_S32x256x4096 : S32x256x64x64.ShapeCasts S32x256x4096
  bcast_S_S32x2048 : S_.BroadcastsInDim S32x2048 (![] : Fin 0 → Fin S32x2048.rank)
  bcast_S32x2048_S32x1x2048_0_2 : S32x2048.BroadcastsInDim S32x1x2048 (![0, 2] : Fin 2 → Fin S32x1x2048.rank)
  bcast_S_S32x1x2048 : S_.BroadcastsInDim S32x1x2048 (![] : Fin 0 → Fin S32x1x2048.rank)
  shapeCasts_S32x1x2048_S32x2048x1 : S32x1x2048.ShapeCasts S32x2048x1
  bcast_S_S32x2048x1 : S_.BroadcastsInDim S32x2048x1 (![] : Fin 0 → Fin S32x2048x1.rank)
  bcast_S1_S1x1x1_2 : S1.BroadcastsInDim S1x1x1 (![2] : Fin 1 → Fin S1x1x1.rank)
  bcast_S1x1x1_S32x2048x1_0_1_2 : S1x1x1.BroadcastsInDim S32x2048x1 (![0, 1, 2] : Fin 3 → Fin S32x2048x1.rank)
  reducesTo_S32x2048x1_S32x2048_d2 : S32x2048x1.ReducesTo [2] S32x2048
  h_S_ : 0 < S_.numel
  bcast_S32x2048_S32x256x2048_0_2 : S32x2048.BroadcastsInDim S32x256x2048 (![0, 2] : Fin 2 → Fin S32x256x2048.rank)
  bcast_S_S32x256x2048 : S_.BroadcastsInDim S32x256x2048 (![] : Fin 0 → Fin S32x256x2048.rank)
  transposes_S32x256x2048_S32x2048x256_0_2_1 : S32x256x2048.Transposes [0, 2, 1] S32x2048x256
  bcast_S32x2048x1_S32x2048x256_0_1_2 : S32x2048x1.BroadcastsInDim S32x2048x256 (![0, 1, 2] : Fin 3 → Fin S32x2048x256.rank)
  gather_S32x256x4096_S32x2048x1_S32x256x2048_1_2_0_0_2_2_12561_wf : GatherDims.WF S32x256x4096 S32x2048x1 S32x256x2048 [1] [2] [0] [2] [0] 2 ![1, 256, 1]

variable [Facts₀]

def gather_S32x256x4096_S32x2048x1_S32x256x2048_1_2_0_0_2_2_12561 : GatherDims S32x256x4096 S32x2048x1 S32x256x2048 where
  offsetDims := [1]
  collapsedSliceDims := [2]
  operandBatchingDims := [0]
  startIndicesBatchingDims := [0]
  startIndexMap := [2]
  indexVectorDim := 2
  sliceSizes := ![1, 256, 1]
  wf := gather_S32x256x4096_S32x2048x1_S32x256x2048_1_2_0_0_2_2_12561_wf

class Facts : Prop extends Facts₀ where

variable [Facts]
-- ==== Proof.Coords.lean ====
/-
  Bilinear sampling of a 64 × 64 feature plane at a normalised anchor, as scalar mathematics on the extended reals.

  An anchor coordinate `a` is scaled to a pixel coordinate `pix a = min 63 (max 0 (a · 63))`, which is a real in
  `[0, 63]` whatever `a` is (the clip's bounds are real, and the extended reals have no NaN).  Its cell is
  `cellLo a = ⌊pix a⌋` and `cellHi a = ⌈pix a⌉` as 32-bit words, both in `[0, 63]`, and `frac a = pix a − ⌊pix a⌋`.
  A pair of cell coordinates `(y, x)` names the flat pixel `flat y x = y · 64 + x < 4096` (no 32-bit overflow).

  Two ways to sample a row `f : Fin 4096 → EReal` of pixel values at an anchor `(ax, ay)`:
  * `sample`: read the four corner pixels and interpolate, first along x, then along y;
  * `weighted`: the sum over ALL pixels `h` of `weights h · f h`, where `weights` adds up four one-hot rows, one per
    corner, each carrying that corner's bilinear weight.
  They agree when every `f h` is a real number (`weighted_eq_sample`): a one-hot row picks its pixel out of the sum, and the
  rest is the bilinear identity `(1−dx)(1−dy)·lt + dx(1−dy)·rt + (1−dx)dy·lb + dx·dy·rb = t + (b − t)·dy` with
  `t = lt + (rt − lt)·dx`, `b = lb + (rb − lb)·dx`, which is distributivity and so needs finite values.
-/
import Idealize.ShloMosaic.PureOps.Ideal
import Idealize.ShloMosaic.Lib.ValueIdx

noncomputable section

open scoped BigOperators

namespace Cert.Bilinear

open Idealize.ShloMosaic Idealize.ShloMosaic.ValueIdx

/-! ## The float words the programs spell, as extended reals -/

theorem ofBits_zero : Ideal.ofBits .f32 0x00000000#32 = 0 := by
  simp [Ideal.ofBits, Ideal.ieee]

theorem ofBits_one : Ideal.ofBits .f32 0x3F800000#32 = 1 := by
  simp [Ideal.ofBits, Ideal.ieee, -EReal.coe_mul]; norm_num

theorem ofBits_63 : Ideal.ofBits .f32 0x427C0000#32 = ((63 : ℝ) : EReal) := by
  simp [Ideal.ofBits, Ideal.ieee, -EReal.coe_mul]; norm_num

/-! ## Pixel coordinates of an anchor coordinate -/

/-- The anchor coordinate scaled to pixels and clipped to the plane: `min 63 (max 0 (a · 63))`. -/
def pix (a : EReal) : EReal := min ((63 : ℝ) : EReal) (max ((0 : ℝ) : EReal) (a * ((63 : ℝ) : EReal)))

/-- The cell's lower coordinate `⌊pix a⌋`, as the 32-bit word the float-to-integer conversion gives. -/
def cellLo (a : EReal) : BitVec 32 := Ideal.fptosi 32 (Ideal.liftRound Int.floor (pix a))

/-- The cell's upper coordinate `⌈pix a⌉`. -/
def cellHi (a : EReal) : BitVec 32 := Ideal.fptosi 32 (Ideal.liftRound Int.ceil (pix a))

/-- The offset inside the cell, `pix a − ⌊pix a⌋`. -/
def frac (a : EReal) : EReal := pix a - (((cellLo a).toInt : ℝ) : EReal)

/-- The flat pixel number of cell coordinates `(y, x)` in a plane of row length 64. -/
def flat (y x : BitVec 32) : BitVec 32 := y * 64#32 + x

/-- The clipped pixel coordinate is a real number in `[0, 63]`, for every extended real `a`. -/
theorem pix_real (a : EReal) : ∃ r : ℝ, 0 ≤ r ∧ r ≤ 63 ∧ pix a = (r : EReal) := by
  have hmono : Monotone ((↑) : ℝ → EReal) := EReal.coe_strictMono.monotone
  have h63 : ((0 : ℝ) : EReal) ≤ ((63 : ℝ) : EReal) := hmono (by norm_num)
  induction a using EReal.rec with
  | bot =>
    -- ⊥ · 63 = ⊥, clipped from below to 0
    refine ⟨0, le_refl _, by norm_num, ?_⟩
    unfold pix
    rw [EReal.bot_mul_coe_of_pos (by norm_num : (0 : ℝ) < 63), max_eq_left bot_le, min_eq_right h63]
  | top =>
    -- ⊤ · 63 = ⊤, clipped from above to 63
    refine ⟨63, by norm_num, le_refl _, ?_⟩
    unfold pix
    rw [EReal.top_mul_coe_of_pos (by norm_num : (0 : ℝ) < 63), max_eq_right le_top, min_eq_left le_top]
  | coe r =>
    -- a real stays real: the clip of reals is the real clip
    refine ⟨min 63 (max 0 (r * 63)), le_min (by norm_num) (le_max_left _ _), min_le_left _ _, ?_⟩
    unfold pix
    rw [← EReal.coe_mul, ← hmono.map_max, ← hmono.map_min]

/-- Converting the real of an integer `z ∈ [0, 63]` to a 32-bit word gives the word whose signed value is `z`. -/
private theorem fptosi_toInt {z : ℤ} (h0 : 0 ≤ z) (h63 : z ≤ 63) :
    (Ideal.fptosi 32 (((z : ℝ)) : EReal)).toInt = z := by
  have hz : (0 : ℝ) ≤ (z : ℝ) := by exact_mod_cast h0
  have hc : Ideal.toIntClamped (-((2 ^ (32 - 1) : Nat) : ℤ)) (((2 ^ (32 - 1) : Nat) : ℤ) - 1) (((z : ℝ)) : EReal) = z := by
    rw [Ideal.toIntClamped_coe, if_pos hz, Int.floor_intCast]
    have e : ((2 ^ (32 - 1) : Nat) : ℤ) = 2147483648 := by norm_num
    rw [e]
    omega
  unfold Ideal.fptosi
  rw [hc, BitVec.toInt_ofInt]
  have e : ((2 : Nat) ^ 32) = 4294967296 := by norm_num
  rw [e]
  exact Int.bmod_eq_of_le_mul_two (by omega) (by omega)

theorem cellLo_toInt (a : EReal) : 0 ≤ (cellLo a).toInt ∧ (cellLo a).toInt ≤ 63 := by
  obtain ⟨r, h0, h63, hr⟩ := pix_real a
  have f0 : 0 ≤ ⌊r⌋ := Int.floor_nonneg.mpr h0
  have f63 : ⌊r⌋ ≤ 63 := by
    have : ((⌊r⌋ : ℤ) : ℝ) ≤ ((63 : ℤ) : ℝ) := le_trans (Int.floor_le r) (by exact_mod_cast h63)
    exact_mod_cast this
  unfold cellLo
  rw [hr, Ideal.liftRound_coe, fptosi_toInt f0 f63]
  exact ⟨f0, f63⟩

theorem cellHi_toInt (a : EReal) : 0 ≤ (cellHi a).toInt ∧ (cellHi a).toInt ≤ 63 := by
  obtain ⟨r, h0, h63, hr⟩ := pix_real a
  have c0 : 0 ≤ ⌈r⌉ := Int.ceil_nonneg h0
  have c63 : ⌈r⌉ ≤ 63 := Int.ceil_le.mpr (by exact_mod_cast h63)
  unfold cellHi
  rw [hr, Ideal.liftRound_coe, fptosi_toInt c0 c63]
  exact ⟨c0, c63⟩

/-- The offset inside the cell is a real number. -/
theorem frac_real (a : EReal) : ∃ d : ℝ, frac a = (d : EReal) := by
  obtain ⟨r, _, _, hr⟩ := pix_real a
  exact ⟨r - ((cellLo a).toInt : ℝ), by unfold frac; rw [hr, EReal.coe_sub]⟩

/-- Cell coordinates in `[0, 63]` give a flat pixel number in `[0, 4095]`, computed without 32-bit overflow. -/
theorem flat_toInt {y x : BitVec 32} (hy : 0 ≤ y.toInt ∧ y.toInt ≤ 63) (hx : 0 ≤ x.toInt ∧ x.toInt ≤ 63) :
    (flat y x).toInt = y.toInt * 64 + x.toInt ∧ 0 ≤ (flat y x).toInt ∧ (flat y x).toInt ≤ 4095 := by
  have e : (flat y x).toInt = y.toInt * 64 + x.toInt := by
    unfold flat
    rw [BitVec.toInt_add, BitVec.toInt_mul]
    have e64 : (64#32).toInt = 64 := by decide
    have e32 : ((2 : Nat) ^ 32) = 4294967296 := by norm_num
    rw [e64, e32, Int.bmod_eq_of_le_mul_two (x := y.toInt * 64) (by omega) (by omega),
      Int.bmod_eq_of_le_mul_two (by omega) (by omega)]
  rw [e]
  omega

/-- The four corners' flat pixel numbers of an anchor `(ax, ay)`: left-top, right-top, left-bottom, right-bottom. -/
def cLT (ax ay : EReal) : BitVec 32 := flat (cellLo ay) (cellLo ax)
def cRT (ax ay : EReal) : BitVec 32 := flat (cellLo ay) (cellHi ax)
def cLB (ax ay : EReal) : BitVec 32 := flat (cellHi ay) (cellLo ax)
def cRB (ax ay : EReal) : BitVec 32 := flat (cellHi ay) (cellHi ax)

theorem cLT_toInt (ax ay : EReal) : 0 ≤ (cLT ax ay).toInt ∧ (cLT ax ay).toInt ≤ 4095 :=
  (flat_toInt (cellLo_toInt ay) (cellLo_toInt ax)).2
theorem cRT_toInt (ax ay : EReal) : 0 ≤ (cRT ax ay).toInt ∧ (cRT ax ay).toInt ≤ 4095 :=
  (flat_toInt (cellLo_toInt ay) (cellHi_toInt ax)).2
theorem cLB_toInt (ax ay : EReal) : 0 ≤ (cLB ax ay).toInt ∧ (cLB ax ay).toInt ≤ 4095 :=
  (flat_toInt (cellHi_toInt ay) (cellLo_toInt ax)).2
theorem cRB_toInt (ax ay : EReal) : 0 ≤ (cRB ax ay).toInt ∧ (cRB ax ay).toInt ≤ 4095 :=
  (flat_toInt (cellHi_toInt ay) (cellHi_toInt ax)).2

/-! ## Sampling a row of pixels -/

/-- The pixel a flat number names (reduced mod 4096, so that the function is total; a number in range is itself). -/
def pick (k : BitVec 32) : Fin 4096 := ⟨k.toNat % 4096, Nat.mod_lt _ (by decide)⟩

theorem pick_val {k : BitVec 32} (hk : 0 ≤ k.toInt ∧ k.toInt ≤ 4095) : (pick k).val = k.toInt.toNat ∧ k.toNat = k.toInt.toNat ∧ k.toNat < 4096 := by
  have hlt := k.isLt
  have hn : k.toNat = k.toInt.toNat ∧ k.toNat < 4096 := by
    have ht := BitVec.toInt_eq_toNat_cond k
    split at ht <;> omega
  refine ⟨?_, hn.1, hn.2⟩
  show k.toNat % 4096 = k.toInt.toNat
  omega

/-- Interpolating the four corner pixels: along x on the top and the bottom edge, then along y. -/
def sample (f : Fin 4096 → EReal) (ax ay : EReal) : EReal :=
  (f (pick (cLT ax ay)) + (f (pick (cRT ax ay)) - f (pick (cLT ax ay))) * frac ax)
    + ((f (pick (cLB ax ay)) + (f (pick (cRB ax ay)) - f (pick (cLB ax ay))) * frac ax)
        - (f (pick (cLT ax ay)) + (f (pick (cRT ax ay)) - f (pick (cLT ax ay))) * frac ax)) * frac ay

/-- A one-hot row: weight `w` at the pixel whose number is the word `k`, zero elsewhere. -/
def hot (k : BitVec 32) (w : EReal) (h : Fin 4096) : EReal := if BitVec.ofNat 32 h.val = k then w else 0

/-- The four corners' one-hot rows added up, in the order left-top, right-top, left-bottom, right-bottom. -/
def hot4 (k1 k2 k3 k4 : BitVec 32) (w1 w2 w3 w4 : EReal) (h : Fin 4096) : EReal :=
  ((hot k1 w1 h + hot k2 w2 h) + hot k3 w3 h) + hot k4 w4 h

/-- The bilinear weights of the four corners, `(1−dx)(1−dy)`, `dx(1−dy)`, `(1−dx)dy`, `dx·dy`. -/
def wLT (ax ay : EReal) : EReal := (1 - frac ax) * (1 - frac ay)
def wRT (ax ay : EReal) : EReal := frac ax * (1 - frac ay)
def wLB (ax ay : EReal) : EReal := (1 - frac ax) * frac ay
def wRB (ax ay : EReal) : EReal := frac ax * frac ay

/-- The weight row of an anchor: each pixel's total bilinear weight. -/
def weights (ax ay : EReal) (h : Fin 4096) : EReal :=
  hot4 (cLT ax ay) (cRT ax ay) (cLB ax ay) (cRB ax ay) (wLT ax ay) (wRT ax ay) (wLB ax ay) (wRB ax ay) h

/-- The weighted sum over all pixels. -/
def weighted (f : Fin 4096 → EReal) (ax ay : EReal) : EReal := ∑ h : Fin 4096, weights ax ay h * f h

/-- For a word in range, the one-hot row is the indicator of the pixel the word names. -/
private theorem hot_eq {k : BitVec 32} (hk : k.toNat < 4096) (w : EReal) (h : Fin 4096) :
    hot k w h = if h = pick k then w else 0 := by
  have hh := h.isLt
  have hiff : BitVec.ofNat 32 h.val = k ↔ h = pick k := by
    constructor
    · intro e
      apply Fin.ext
      show h.val = k.toNat % 4096
      rw [← e, BitVec.toNat_ofNat]
      omega
    · intro e
      apply BitVec.eq_of_toNat_eq
      rw [e, BitVec.toNat_ofNat]
      show (k.toNat % 4096) % 2 ^ 32 = k.toNat
      omega
  unfold hot
  by_cases c : h = pick k
  · rw [if_pos c, if_pos (hiff.mpr c)]
  · rw [if_neg c, if_neg (fun e => c (hiff.mp e))]

/-- A finite sum of reals, read in the extended reals, is the sum of the readings. -/
private theorem coe_sum {ι : Type} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- An indicator with a real weight is the reading of the real indicator. -/
private theorem ite_coe (c : Prop) [Decidable c] (w : ℝ) :
    (if c then (w : EReal) else 0) = ((if c then w else 0 : ℝ) : EReal) := by
  split_ifs
  · rfl
  · exact EReal.coe_zero.symm

/-- The law for real data, with the four corner pixels and the two offsets as free variables. -/
private theorem bilinear_real (g : Fin 4096 → ℝ) (p1 p2 p3 p4 : Fin 4096) (dx dy : ℝ) :
    ∑ h : Fin 4096,
        (((((if h = p1 then ((1 : EReal) - (dx : EReal)) * ((1 : EReal) - (dy : EReal)) else 0)
          + (if h = p2 then (dx : EReal) * ((1 : EReal) - (dy : EReal)) else 0))
          + (if h = p3 then ((1 : EReal) - (dx : EReal)) * (dy : EReal) else 0))
          + (if h = p4 then (dx : EReal) * (dy : EReal) else 0)) * (g h : EReal))
      = ((g p1 : EReal) + ((g p2 : EReal) - (g p1 : EReal)) * (dx : EReal))
        + (((g p3 : EReal) + ((g p4 : EReal) - (g p3 : EReal)) * (dx : EReal))
            - ((g p1 : EReal) + ((g p2 : EReal) - (g p1 : EReal)) * (dx : EReal))) * (dy : EReal) := by
  rw [← EReal.coe_one]
  simp only [← EReal.coe_sub, ← EReal.coe_mul, ite_coe, ← EReal.coe_add, ← coe_sum]
  congr 1
  -- the identity in ℝ: each indicator picks its pixel out of the sum, the rest is distributivity
  simp only [add_mul, Finset.sum_add_distrib, ite_mul, zero_mul, Finset.sum_ite_eq', Finset.mem_univ, if_true]
  ring

/-- THE LAW: on a row of real numbers the weighted sum over all pixels is the interpolation of the four corners. -/
theorem weighted_eq_sample (f : Fin 4096 → EReal) (hf : ∀ h, ∃ r : ℝ, f h = (r : EReal)) (ax ay : EReal) :
    weighted f ax ay = sample f ax ay := by
  choose g hg using hf
  obtain ⟨dx, hdx⟩ := frac_real ax
  obtain ⟨dy, hdy⟩ := frac_real ay
  have h1 := (pick_val (cLT_toInt ax ay)).2.2
  have h2 := (pick_val (cRT_toInt ax ay)).2.2
  have h3 := (pick_val (cLB_toInt ax ay)).2.2
  have h4 := (pick_val (cRB_toInt ax ay)).2.2
  unfold weighted sample weights hot4 wLT wRT wLB wRB
  simp only [hot_eq h1, hot_eq h2, hot_eq h3, hot_eq h4, hdx, hdy, hg]
  exact bilinear_real g _ _ _ _ dx dy

/-! ## The result array -/

/-- The row of pixel values of batch `b`, channel `c` of a feature map `[32, 256, 64, 64]`, by flat pixel number. -/
def row (fm : (⟨4, ![32, 256, 64, 64]⟩ : Shape).Idx → EReal) (b : Fin 32) (c : Fin 256) (h : Fin 4096) : EReal :=
  fm (ix4 b c ⟨h.val / 64, by have := h.isLt; omega⟩ ⟨h.val % 64, Nat.mod_lt _ (by decide)⟩)

/-- The sampled feature at batch `b`, query `n`, channel `c`: row `(b, c)` sampled at anchor `(anc[b,n,0], anc[b,n,1])`. -/
def G (fm : (⟨4, ![32, 256, 64, 64]⟩ : Shape).Idx → EReal) (anc : (⟨3, ![32, 2048, 2]⟩ : Shape).Idx → EReal) :
    (⟨3, ![32, 2048, 256]⟩ : Shape).Idx → EReal :=
  fun i => sample (row fm (i 0) (i 2)) (anc (ix3 (i 0) (i 1) (0 : Fin 2))) (anc (ix3 (i 0) (i 1) (1 : Fin 2)))

end Cert.Bilinear

end
-- ==== Proof.Finite.lean ====
/-
  Finiteness from the precondition.

  The precondition says `|x| < +∞` of every entry of both inputs: the conjunction of two reductions by `and` of the
  entrywise comparisons.  On the extended reals `|x| = max x (−x)`, and `max x (−x) < ⊤` holds exactly when `x` is neither
  infinity, that is when `x` is a real number.  Only the feature map's finiteness is used: the law that joins the two
  programs is distributivity over the feature values.
-/
import proofs.«163682_j5995774345370_1_alg».proof.Defs
import Idealize.ShloMosaic.Lib.ReduceAll
import Idealize.ShloMosaic.Lib.ValueIdx

noncomputable section

namespace Cert.Finite

open Idealize.ShloMosaic Idealize.ShloMosaic.ValueIdx

instance : Subsingleton Cert.Pre_finite_inputs.S_.Idx := ⟨fun a b => funext fun d => d.elim0⟩

/-- The word `0x7F800000` denotes `+∞`. -/
theorem ofBits_inf : Ideal.ofBits .f32 0x7F800000#32 = ⊤ := by
  simp [Ideal.ofBits, Ideal.ieee]

/-- An extended real whose absolute value is below `+∞` is a real number. -/
theorem real_of_abs_lt_top (x : EReal) (h : max x (-x) < ⊤) : ∃ r : ℝ, x = (r : EReal) := by
  induction x using EReal.rec with
  | bot => simp at h
  | coe r => exact ⟨r, rfl⟩
  | top => simp at h

/-- Under the precondition every entry of the feature map is a real number. -/
theorem fm_real [Cert.Pre_finite_inputs.Facts] (a0 : FVec Ideal Cert.Pre_finite_inputs.S32x256x64x64 .f32)
    (a1 : FVec Ideal Cert.Pre_finite_inputs.S32x2048x2 .f32)
    (h : Cert.Pre_finite_inputs.fn (F := Ideal) a0 a1 = fun _ => 1#1) (i : Cert.Pre_finite_inputs.S32x256x64x64.Idx) :
    ∃ r : ℝ, a0 i = (r : EReal) := by
  have h0 := congrFun h ix0
  dsimp only [Cert.Pre_finite_inputs.fn] at h0
  obtain ⟨h1, -⟩ := IntOp.andi_eq_one.1 h0
  have hi := Host.reduce_andi_all _ _ _ _ _ h1 i
  have hc : Ideal.cmp .olt (max (a0 i) (-(a0 i))) (Ideal.ofBits .f32 0x7F800000#32) = 1#1 := hi
  rw [ofBits_inf] at hc
  have hlt : max (a0 i) (-(a0 i)) < ⊤ := by
    by_contra hn
    simp [Ideal.cmp, hn] at hc
  exact real_of_abs_lt_top _ hlt

end Cert.Finite

end
-- ==== Proof.KernelBody.lean ====
/-
  The kernel body at one output element.

  At a grid point the body holds one batch's feature rows `x0 : [1, 256, 4096]` (channel × flat pixel), four index rows
  `x1 … x4 : [1, 1, 256]` (the corner pixels of 256 queries: left-top, right-top, left-bottom, right-bottom) and four
  weight rows `x5 … x8 : [1, 1, 256]`.  It builds the `4096 × 256` weight matrix whose column `n` adds up four one-hot
  columns — row `h` of corner `k` is the corner's weight where the pixel counter `h` equals the corner's index word, else
  zero — and multiplies it, contracted over the pixel axis, into the feature rows.  At the ideal instance the narrowing of
  both operands to bf16 is the identity and the product into a zero accumulator is the plain sum, so element `(n, c)` of the
  stored block is `∑ h, (four one-hot rows at h) · x0[c, h]`.
-/
import proofs.«163682_j5995774345370_1_alg».proof.Proof.Gen.KernelIdeal.Frame
import proofs.«163682_j5995774345370_1_alg».proof.Proof.Coords
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.ValueIdx Cert.Bilinear

/-! ## One one-hot column of the weight matrix -/

/-- The pixel counter runs down the rows of the weight matrix: at `(h, n)` it is the word of `h`. -/
theorem counter_apply (h : Fin 4096) (n : Fin 256) :
    iota .tc S4096x256 32 [0] iota_S4096x256_d0_w32 (ix2 h n) = BitVec.ofNat 32 h.val :=
  iota_single_apply .tc S4096x256 32 0 iota_S4096x256_d0_w32 (ix2 h n)

/-- A row `[1, 1, 256]` viewed `[1, 256]` and copied down the 4096 rows reads, at `(h, n)`, its entry `n`. -/
theorem row_apply {α : Type} (v : S1x1x256.Idx → α) (h : Fin 4096) (n : Fin 256) :
    broadcastTo S4096x256 (shapeCast S1x256 v shapeCasts_S1x1x256_S1x256) broadcasts_S1x256_S4096x256 (ix2 h n)
      = v (ix3 (0 : Fin 1) (0 : Fin 1) n) :=
  (broadcastTo_1b_ab_apply _ _ h n).trans (shapeCast_1ab_ab_apply v _ (0 : Fin 1) n)

/-- A select on "the two words are equal" is the `if` on their equality. -/
theorem select_eq_ite {α : Type} (x k : BitVec 32) (a b : α) :
    Scalar.select (IntOp.cmpi .eq x k) a b = if x = k then a else b := by
  show (if BitVec.ofBool (x == k) = 1 then a else b) = if x = k then a else b
  by_cases e : x = k
  · subst e; simp
  · have hb : (x == k) = false := by simpa using e
    rw [hb, if_neg e]
    exact if_neg (by decide)

/-- One corner's column of the weight matrix at `(h, n)`: the corner's weight for query `n` where the pixel counter
    `h` is the corner's pixel, else zero. -/
theorem onehot_apply (idx : IVec S1x1x256 32) (w : FVec Ideal S1x1x256 .f32) (h : Fin 4096) (n : Fin 256) :
    select (cmpi .eq (iota .tc S4096x256 32 [0] iota_S4096x256_d0_w32)
        (broadcastTo S4096x256 (shapeCast S1x256 idx shapeCasts_S1x1x256_S1x256) broadcasts_S1x256_S4096x256))
      (broadcastTo S4096x256 (shapeCast S1x256 (shapeCast S1x256 w shapeCasts_S1x1x256_S1x256) shapeCasts_S1x256_S1x256)
        broadcasts_S1x256_S4096x256)
      (broadcast S4096x256 (Scalar.ofBits (F := Ideal) .f32 0x00000000#32)) (ix2 h n)
      = hot (idx (ix3 (0 : Fin 1) (0 : Fin 1) n)) (w (ix3 (0 : Fin 1) (0 : Fin 1) n)) h := by
  rw [shapeCast_self]
  show Scalar.select (IntOp.cmpi .eq (iota .tc S4096x256 32 [0] iota_S4096x256_d0_w32 (ix2 h n))
      (broadcastTo S4096x256 (shapeCast S1x256 idx shapeCasts_S1x1x256_S1x256) broadcasts_S1x256_S4096x256 (ix2 h n)))
    (broadcastTo S4096x256 (shapeCast S1x256 w shapeCasts_S1x1x256_S1x256) broadcasts_S1x256_S4096x256 (ix2 h n))
    (Ideal.ofBits .f32 0x00000000#32) = _
  rw [counter_apply, row_apply, row_apply, ofBits_zero, select_eq_ite]
  rfl

/-! ## The product's operand indices -/

/- The matrix product's dimension numbers: the weight matrix `[4096, 256]` contracts its rows (axis 0), the feature rows
   `[256, 4096]` their columns (axis 1); the result is query × channel.  The four lemmas below read the two operands'
   indices axis by axis: a contracted axis carries the contraction index, a free axis the result's coordinate. -/

theorem lhs_axis0 (i : S256x256.Idx) (q : dot_S4096x256_S256x4096_S256x256_0_1_1_0_n_n.contr.Idx) :
    (dot_S4096x256_S256x4096_S256x256_0_1_1_0_n_n.lhsIdx i q 0).val = (q ⟨0, by decide⟩).val :=
  dot_S4096x256_S256x4096_S256x256_0_1_1_0_n_n.lhsIdx_val_of_single rfl i q

theorem lhs_axis1 (i : S256x256.Idx) (q : dot_S4096x256_S256x4096_S256x256_0_1_1_0_n_n.contr.Idx) :
    (dot_S4096x256_S256x4096_S256x256_0_1_1_0_n_n.lhsIdx i q 1).val = (i 0).val := by
  unfold DotDims.lhsIdx
  rw [dif_neg (show ¬(1 : Fin S4096x256.rank) ∈ dot_S4096x256_S256x4096_S256x256_0_1_1_0_n_n.lhsBatch by decide),
    dif_pos (show (1 : Fin S4096x256.rank) ∈ dot_S4096x256_S256x4096_S256x256_0_1_1_0_n_n.lhsNonContracting by decide)]
  rfl

theorem rhs_axis0 (i : S256x256.Idx) (q : dot_S4096x256_S256x4096_S256x256_0_1_1_0_n_n.contr.Idx) :
    (dot_S4096x256_S256x4096_S256x256_0_1_1_0_n_n.rhsIdx i q 0).val = (i 1).val := by
  unfold DotDims.rhsIdx
  rw [dif_neg (show ¬(0 : Fin S256x4096.rank) ∈ dot_S4096x256_S256x4096_S256x256_0_1_1_0_n_n.rhsBatch by decide),
    dif_pos (show (0 : Fin S256x4096.rank) ∈ dot_S4096x256_S256x4096_S256x256_0_1_1_0_n_n.rhsNonContracting by decide)]
  rfl

theorem rhs_axis1 (i : S256x256.Idx) (q : dot_S4096x256_S256x4096_S256x256_0_1_1_0_n_n.contr.Idx) :
    (dot_S4096x256_S256x4096_S256x256_0_1_1_0_n_n.rhsIdx i q 1).val = (q ⟨0, by decide⟩).val :=
  dot_S4096x256_S256x4096_S256x256_0_1_1_0_n_n.rhsIdx_val_of_single rfl i q

/-- The product into the zero accumulator at `(n, c)`: the sum over the pixel `h` of the weight matrix at `(h, n)`
    times the feature rows at `(c, h)`. -/
theorem product_apply {φ₁ φ₂ : FTy} (L : FVec Ideal S4096x256 φ₁) (R : FVec Ideal S256x4096 φ₂) (n c : Fin 256) :
    matmul dot_S4096x256_S256x4096_S256x256_0_1_1_0_n_n none L R (constant (F := Ideal) S256x256 .f32 0x00000000#32) (ix2 n c)
      = ∑ h : Fin 4096, L (ix2 h n) * R (ix2 c h) := by
  refine (Ideal.matmul_constant_zero_apply dot_S4096x256_S256x4096_S256x256_0_1_1_0_n_n none L R (ix2 n c)).trans ?_
  rw [← Equiv.sum_comp (contrEquiv1 dot_S4096x256_S256x4096_S256x256_0_1_1_0_n_n 4096 rfl rfl).symm]
  refine Finset.sum_congr rfl fun h _ => ?_
  have hk := contrEquiv1_symm_val dot_S4096x256_S256x4096_S256x256_0_1_1_0_n_n 4096 rfl rfl h
  have el : dot_S4096x256_S256x4096_S256x256_0_1_1_0_n_n.lhsIdx (ix2 n c)
      ((contrEquiv1 dot_S4096x256_S256x4096_S256x256_0_1_1_0_n_n 4096 rfl rfl).symm h) = ix2 h n :=
    funext fun a => Fin.ext (by
      match a with
      | ⟨0, _⟩ => exact (lhs_axis0 _ _).trans hk
      | ⟨1, _⟩ => exact lhs_axis1 _ _)
  have er : dot_S4096x256_S256x4096_S256x256_0_1_1_0_n_n.rhsIdx (ix2 n c)
      ((contrEquiv1 dot_S4096x256_S256x4096_S256x256_0_1_1_0_n_n 4096 rfl rfl).symm h) = ix2 c h :=
    funext fun a => Fin.ext (by
      match a with
      | ⟨0, _⟩ => exact rhs_axis0 _ _
      | ⟨1, _⟩ => exact (rhs_axis1 _ _).trans hk)
  rw [el, er]

/-! ## The weight matrix and the stored block -/

/-- The first three corners' columns added up, at `(h, n)`. -/
theorem pay2_apply (v1 : Vec Ideal S1x1x256 .i32) (v3 : Vec Ideal S1x1x256 .f32) (v11 : Vec Ideal S1x1x256 .i32)
    (v13 : Vec Ideal S1x1x256 .f32) (v22 : Vec Ideal S1x1x256 .i32) (v24 : Vec Ideal S1x1x256 .f32)
    (h : Fin 4096) (n : Fin 256) :
    k0_pay2 (F := Ideal) v1 v3 v11 v13 v22 v24 (ix2 h n)
      = (hot (v1 (ix3 (0 : Fin 1) (0 : Fin 1) n)) (v3 (ix3 (0 : Fin 1) (0 : Fin 1) n)) h + hot (v11 (ix3 (0 : Fin 1) (0 : Fin 1) n)) (v13 (ix3 (0 : Fin 1) (0 : Fin 1) n)) h) + hot (v22 (ix3 (0 : Fin 1) (0 : Fin 1) n)) (v24 (ix3 (0 : Fin 1) (0 : Fin 1) n)) h := by
  unfold k0_pay2
  dsimp only
  rw [addf_apply, addf_apply, onehot_apply, onehot_apply, onehot_apply]

/-- The stored block at `(0, n, c)` over any three-corner sum `v32`: the fourth corner's column is added, both operands
    are narrowed (the identity here), and the product into zero is the sum over the pixels. -/
theorem pay1_apply (v32 : FVec Ideal S4096x256 .f32) (v33 : Vec Ideal S1x1x256 .i32) (v35 : Vec Ideal S1x1x256 .f32)
    (v44 : Vec Ideal S1x256x4096 .f32) (n c : Fin 256) :
    k0_pay1 (F := Ideal) (iota .tc S4096x256 32 [0] iota_S4096x256_d0_w32) v32 v33 v35 v44 (ix3 (0 : Fin 1) n c)
      = ∑ h : Fin 4096, (v32 (ix2 h n) + hot (v33 (ix3 (0 : Fin 1) (0 : Fin 1) n)) (v35 (ix3 (0 : Fin 1) (0 : Fin 1) n)) h) * v44 (ix3 (0 : Fin 1) c h) := by
  unfold k0_pay1
  dsimp only
  refine (shapeCast_ab_1ab_apply _ _ (0 : Fin 1) n c).trans ?_
  refine (product_apply _ _ n c).trans ?_
  refine Finset.sum_congr rfl fun h _ => ?_
  rw [truncf_apply, truncf_apply, addf_apply, onehot_apply, shapeCast_1ab_ab_apply]

/-- Element `(n, c)` of the block the body stores: the weight column of query `n` against the feature row of channel `c`. -/
theorem out_apply (x0 : Vec Ideal S1x256x4096 .f32) (x1 x2 x3 x4 : Vec Ideal S1x1x256 .i32)
    (x5 x6 x7 x8 : Vec Ideal S1x1x256 .f32) (n c : Fin 256) :
    out0_9 (F := Ideal) x0 x1 x2 x3 x4 x5 x6 x7 x8 (ix3 (0 : Fin 1) n c)
      = ∑ h : Fin 4096,
          hot4 (x1 (ix3 (0 : Fin 1) (0 : Fin 1) n)) (x2 (ix3 (0 : Fin 1) (0 : Fin 1) n))
               (x3 (ix3 (0 : Fin 1) (0 : Fin 1) n)) (x4 (ix3 (0 : Fin 1) (0 : Fin 1) n))
               (x5 (ix3 (0 : Fin 1) (0 : Fin 1) n)) (x6 (ix3 (0 : Fin 1) (0 : Fin 1) n))
               (x7 (ix3 (0 : Fin 1) (0 : Fin 1) n)) (x8 (ix3 (0 : Fin 1) (0 : Fin 1) n)) h
            * x0 (ix3 (0 : Fin 1) c h) := by
  have hz : (![0, 0, 0] : Fin 3 → Nat) = fun _ => 0 := funext fun a => by fin_cases a <;> rfl
  unfold out0_9
  rw [View.canon_unit_zero hz]
  simp only [View.ld_unit_zero (S := S1x1x256) hz, View.ld_unit_zero (S := S1x256x4096) hz]
  refine (pay1_apply _ _ _ _ n c).trans ?_
  refine Finset.sum_congr rfl fun h _ => ?_
  rw [pay2_apply]
  rfl

end Cert.KernelIdeal.Body

end
-- ==== Proof.KernelArray.lean ====
/-
  From blocks to the array.

  Grid point `t = 8·b + q` stages batch `b`'s feature rows, the 256-query slab `q` of each index and weight array, and writes
  back the block `[b, 256·q … 256·q + 255, :]` of the result.  Every block is a restriction of ONE function of the arrays as the
  region finds them: element `(b, n, c)` is the sum over the pixels `h` of query `n`'s four one-hot weight rows against the
  feature row `(b, c)`.  The 32 × 8 blocks tile the result, so after the run the whole array is that function.
-/
import proofs.«163682_j5995774345370_1_alg».proof.Proof.Gen.KernelIdeal.Value
import proofs.«163682_j5995774345370_1_alg».proof.Proof.KernelBody
import Idealize.ShloMosaic.Lib.ValueIdx
import Idealize.ShloMosaic.Lib.Pipeline.Value

noncomputable section

open scoped BigOperators

namespace Cert.KernelIdeal.Array

open Cert.KernelIdeal Cert.KernelIdeal.Gen Idealize.ShloMosaic Idealize.ShloMosaic.TcCoe Idealize.ShloMosaic.ValueIdx Idealize.SL.Sem Cert.Bilinear
open Idealize.ShloMosaic.Pipeline (Dat)

variable (m : (ℓ : Loc nD τ sig) → Buf (Elt Ideal) ℓ)

/-- The result array as one function of the nine arrays the region stages. -/
def K (fm3 : S32x256x4096.Idx → EReal) (i1 i2 i3 i4 : S32x1x2048.Idx → BitVec 32) (w1 w2 w3 w4 : S32x1x2048.Idx → EReal) :
    S32x2048x256.Idx → EReal := fun i =>
  ∑ h : Fin 4096,
    hot4 (i1 (ix3 (i 0) (0 : Fin 1) (i 1))) (i2 (ix3 (i 0) (0 : Fin 1) (i 1))) (i3 (ix3 (i 0) (0 : Fin 1) (i 1))) (i4 (ix3 (i 0) (0 : Fin 1) (i 1)))
         (w1 (ix3 (i 0) (0 : Fin 1) (i 1))) (w2 (ix3 (i 0) (0 : Fin 1) (i 1))) (w3 (ix3 (i 0) (0 : Fin 1) (i 1))) (w4 (ix3 (i 0) (0 : Fin 1) (i 1))) h
      * fm3 (ix3 (i 0) (i 2) h)

/-! ## The grid -/

/-- The printed index maps, decided over the 256 grid points: point `t` is batch `t / 8`, slab `t % 8`. -/
theorem idx_facts : ∀ t : Fin cfg0.N,
    win0_0.index t (0 : Fin 3) = t.val / 8 ∧ win0_0.index t (1 : Fin 3) = 0 ∧ win0_0.index t (2 : Fin 3) = 0
    ∧ win0_1.index t (0 : Fin 3) = t.val / 8 ∧ win0_1.index t (1 : Fin 3) = 0 ∧ win0_1.index t (2 : Fin 3) = t.val % 8
    ∧ win0_2.index t (0 : Fin 3) = t.val / 8 ∧ win0_2.index t (1 : Fin 3) = 0 ∧ win0_2.index t (2 : Fin 3) = t.val % 8
    ∧ win0_3.index t (0 : Fin 3) = t.val / 8 ∧ win0_3.index t (1 : Fin 3) = 0 ∧ win0_3.index t (2 : Fin 3) = t.val % 8
    ∧ win0_4.index t (0 : Fin 3) = t.val / 8 ∧ win0_4.index t (1 : Fin 3) = 0 ∧ win0_4.index t (2 : Fin 3) = t.val % 8
    ∧ win0_5.index t (0 : Fin 3) = t.val / 8 ∧ win0_5.index t (1 : Fin 3) = 0 ∧ win0_5.index t (2 : Fin 3) = t.val % 8
    ∧ win0_6.index t (0 : Fin 3) = t.val / 8 ∧ win0_6.index t (1 : Fin 3) = 0 ∧ win0_6.index t (2 : Fin 3) = t.val % 8
    ∧ win0_7.index t (0 : Fin 3) = t.val / 8 ∧ win0_7.index t (1 : Fin 3) = 0 ∧ win0_7.index t (2 : Fin 3) = t.val % 8
    ∧ win0_8.index t (0 : Fin 3) = t.val / 8 ∧ win0_8.index t (1 : Fin 3) = 0 ∧ win0_8.index t (2 : Fin 3) = t.val % 8
    ∧ win0_9.index t (0 : Fin 3) = t.val / 8 ∧ win0_9.index t (1 : Fin 3) = t.val % 8 ∧ win0_9.index t (2 : Fin 3) = 0 :=
  (by decide +kernel : ∀ t : Fin grid0.N, _)

/-- The batch of a grid point, and the query its slab's row `n'` is. -/
def pb (t : Fin cfg0.N) : Fin 32 := ⟨t.val / 8, by have := t.isLt; have hN : cfg0.N = 256 := N_0; omega⟩
def qn (t : Fin cfg0.N) (n' : Fin 256) : Fin 2048 :=
  ⟨t.val % 8 * 256 + n'.val, by have := n'.isLt; have := Nat.mod_lt t.val (by decide : 0 < 8); omega⟩

/-! ## Each window's block at a point, read off its array -/

theorem blk0_at (c : Dev nD) (t : Fin cfg0.N) (ch : Fin 256) (h : Fin 4096) :
    (iblk m c 0 t : S1x256x4096.Idx → EReal) (ix3 (0 : Fin 1) ch h)
      = (V m c main_v53 : S32x256x4096.Idx → EReal) (ix3 (pb t) ch h) := by
  have e := idx_facts t
  show (V m c main_v53 : S32x256x4096.Idx → EReal) (((cfg0.win 0).blk t).view.emb (ix3 (0 : Fin 1) ch h)) = _
  refine congrArg (V m c main_v53 : S32x256x4096.Idx → EReal) ?_
  funext a; apply Fin.ext
  match a with
  | ⟨0, _⟩ => show win0_0.index t (0 : Fin 3) * 1 + 1 * 0 = t.val / 8; omega
  | ⟨1, _⟩ => show win0_0.index t (1 : Fin 3) * 256 + 1 * ch.val = ch.val; omega
  | ⟨2, _⟩ => show win0_0.index t (2 : Fin 3) * 4096 + 1 * h.val = h.val; omega

theorem blk1_at (c : Dev nD) (t : Fin cfg0.N) (n' : Fin 256) :
    (iblk m c 1 t : S1x1x256.Idx → BitVec 32) (ix3 (0 : Fin 1) (0 : Fin 1) n')
      = (V m c main_v45 : S32x1x2048.Idx → BitVec 32) (ix3 (pb t) (0 : Fin 1) (qn t n')) := by
  have e := idx_facts t
  show (V m c main_v45 : S32x1x2048.Idx → BitVec 32) (((cfg0.win 1).blk t).view.emb (ix3 (0 : Fin 1) (0 : Fin 1) n')) = _
  refine congrArg (V m c main_v45 : S32x1x2048.Idx → BitVec 32) ?_
  funext a; apply Fin.ext
  match a with
  | ⟨0, _⟩ => show win0_1.index t (0 : Fin 3) * 1 + 1 * 0 = t.val / 8; omega
  | ⟨1, _⟩ => show win0_1.index t (1 : Fin 3) * 1 + 1 * 0 = 0; omega
  | ⟨2, _⟩ => show win0_1.index t (2 : Fin 3) * 256 + 1 * n'.val = t.val % 8 * 256 + n'.val; omega

theorem blk2_at (c : Dev nD) (t : Fin cfg0.N) (n' : Fin 256) :
    (iblk m c 2 t : S1x1x256.Idx → BitVec 32) (ix3 (0 : Fin 1) (0 : Fin 1) n')
      = (V m c main_v46 : S32x1x2048.Idx → BitVec 32) (ix3 (pb t) (0 : Fin 1) (qn t n')) := by
  have e := idx_facts t
  show (V m c main_v46 : S32x1x2048.Idx → BitVec 32) (((cfg0.win 2).blk t).view.emb (ix3 (0 : Fin 1) (0 : Fin 1) n')) = _
  refine congrArg (V m c main_v46 : S32x1x2048.Idx → BitVec 32) ?_
  funext a; apply Fin.ext
  match a with
  | ⟨0, _⟩ => show win0_2.index t (0 : Fin 3) * 1 + 1 * 0 = t.val / 8; omega
  | ⟨1, _⟩ => show win0_2.index t (1 : Fin 3) * 1 + 1 * 0 = 0; omega
  | ⟨2, _⟩ => show win0_2.index t (2 : Fin 3) * 256 + 1 * n'.val = t.val % 8 * 256 + n'.val; omega

theorem blk3_at (c : Dev nD) (t : Fin cfg0.N) (n' : Fin 256) :
    (iblk m c 3 t : S1x1x256.Idx → BitVec 32) (ix3 (0 : Fin 1) (0 : Fin 1) n')
      = (V m c main_v47 : S32x1x2048.Idx → BitVec 32) (ix3 (pb t) (0 : Fin 1) (qn t n')) := by
  have e := idx_facts t
  show (V m c main_v47 : S32x1x2048.Idx → BitVec 32) (((cfg0.win 3).blk t).view.emb (ix3 (0 : Fin 1) (0 : Fin 1) n')) = _
  refine congrArg (V m c main_v47 : S32x1x2048.Idx → BitVec 32) ?_
  funext a; apply Fin.ext
  match a with
  | ⟨0, _⟩ => show win0_3.index t (0 : Fin 3) * 1 + 1 * 0 = t.val / 8; omega
  | ⟨1, _⟩ => show win0_3.index t (1 : Fin 3) * 1 + 1 * 0 = 0; omega
  | ⟨2, _⟩ => show win0_3.index t (2 : Fin 3) * 256 + 1 * n'.val = t.val % 8 * 256 + n'.val; omega

theorem blk4_at (c : Dev nD) (t : Fin cfg0.N) (n' : Fin 256) :
    (iblk m c 4 t : S1x1x256.Idx → BitVec 32) (ix3 (0 : Fin 1) (0 : Fin 1) n')
      = (V m c main_v48 : S32x1x2048.Idx → BitVec 32) (ix3 (pb t) (0 : Fin 1) (qn t n')) := by
  have e := idx_facts t
  show (V m c main_v48 : S32x1x2048.Idx → BitVec 32) (((cfg0.win 4).blk t).view.emb (ix3 (0 : Fin 1) (0 : Fin 1) n')) = _
  refine congrArg (V m c main_v48 : S32x1x2048.Idx → BitVec 32) ?_
  funext a; apply Fin.ext
  match a with
  | ⟨0, _⟩ => show win0_4.index t (0 : Fin 3) * 1 + 1 * 0 = t.val / 8; omega
  | ⟨1, _⟩ => show win0_4.index t (1 : Fin 3) * 1 + 1 * 0 = 0; omega
  | ⟨2, _⟩ => show win0_4.index t (2 : Fin 3) * 256 + 1 * n'.val = t.val % 8 * 256 + n'.val; omega

theorem blk5_at (c : Dev nD) (t : Fin cfg0.N) (n' : Fin 256) :
    (iblk m c 5 t : S1x1x256.Idx → EReal) (ix3 (0 : Fin 1) (0 : Fin 1) n')
      = (V m c main_v49 : S32x1x2048.Idx → EReal) (ix3 (pb t) (0 : Fin 1) (qn t n')) := by
  have e := idx_facts t
  show (V m c main_v49 : S32x1x2048.Idx → EReal) (((cfg0.win 5).blk t).view.emb (ix3 (0 : Fin 1) (0 : Fin 1) n')) = _
  refine congrArg (V m c main_v49 : S32x1x2048.Idx → EReal) ?_
  funext a; apply Fin.ext
  match a with
  | ⟨0, _⟩ => show win0_5.index t (0 : Fin 3) * 1 + 1 * 0 = t.val / 8; omega
  | ⟨1, _⟩ => show win0_5.index t (1 : Fin 3) * 1 + 1 * 0 = 0; omega
  | ⟨2, _⟩ => show win0_5.index t (2 : Fin 3) * 256 + 1 * n'.val = t.val % 8 * 256 + n'.val; omega

theorem blk6_at (c : Dev nD) (t : Fin cfg0.N) (n' : Fin 256) :
    (iblk m c 6 t : S1x1x256.Idx → EReal) (ix3 (0 : Fin 1) (0 : Fin 1) n')
      = (V m c main_v50 : S32x1x2048.Idx → EReal) (ix3 (pb t) (0 : Fin 1) (qn t n')) := by
  have e := idx_facts t
  show (V m c main_v50 : S32x1x2048.Idx → EReal) (((cfg0.win 6).blk t).view.emb (ix3 (0 : Fin 1) (0 : Fin 1) n')) = _
  refine congrArg (V m c main_v50 : S32x1x2048.Idx → EReal) ?_
  funext a; apply Fin.ext
  match a with
  | ⟨0, _⟩ => show win0_6.index t (0 : Fin 3) * 1 + 1 * 0 = t.val / 8; omega
  | ⟨1, _⟩ => show win0_6.index t (1 : Fin 3) * 1 + 1 * 0 = 0; omega
  | ⟨2, _⟩ => show win0_6.index t (2 : Fin 3) * 256 + 1 * n'.val = t.val % 8 * 256 + n'.val; omega

theorem blk7_at (c : Dev nD) (t : Fin cfg0.N) (n' : Fin 256) :
    (iblk m c 7 t : S1x1x256.Idx → EReal) (ix3 (0 : Fin 1) (0 : Fin 1) n')
      = (V m c main_v51 : S32x1x2048.Idx → EReal) (ix3 (pb t) (0 : Fin 1) (qn t n')) := by
  have e := idx_facts t
  show (V m c main_v51 : S32x1x2048.Idx → EReal) (((cfg0.win 7).blk t).view.emb (ix3 (0 : Fin 1) (0 : Fin 1) n')) = _
  refine congrArg (V m c main_v51 : S32x1x2048.Idx → EReal) ?_
  funext a; apply Fin.ext
  match a with
  | ⟨0, _⟩ => show win0_7.index t (0 : Fin 3) * 1 + 1 * 0 = t.val / 8; omega
  | ⟨1, _⟩ => show win0_7.index t (1 : Fin 3) * 1 + 1 * 0 = 0; omega
  | ⟨2, _⟩ => show win0_7.index t (2 : Fin 3) * 256 + 1 * n'.val = t.val % 8 * 256 + n'.val; omega

theorem blk8_at (c : Dev nD) (t : Fin cfg0.N) (n' : Fin 256) :
    (iblk m c 8 t : S1x1x256.Idx → EReal) (ix3 (0 : Fin 1) (0 : Fin 1) n')
      = (V m c main_v52 : S32x1x2048.Idx → EReal) (ix3 (pb t) (0 : Fin 1) (qn t n')) := by
  have e := idx_facts t
  show (V m c main_v52 : S32x1x2048.Idx → EReal) (((cfg0.win 8).blk t).view.emb (ix3 (0 : Fin 1) (0 : Fin 1) n')) = _
  refine congrArg (V m c main_v52 : S32x1x2048.Idx → EReal) ?_
  funext a; apply Fin.ext
  match a with
  | ⟨0, _⟩ => show win0_8.index t (0 : Fin 3) * 1 + 1 * 0 = t.val / 8; omega
  | ⟨1, _⟩ => show win0_8.index t (1 : Fin 3) * 1 + 1 * 0 = 0; omega
  | ⟨2, _⟩ => show win0_8.index t (2 : Fin 3) * 256 + 1 * n'.val = t.val % 8 * 256 + n'.val; omega

/-- Where row `n'`, channel `ch` of point `t`'s result block lies in the result array. -/
theorem emb9 (t : Fin cfg0.N) (n' ch : Fin 256) :
    (((cfg0.win 9).blk t).view.emb (ix3 (0 : Fin 1) n' ch) : S32x2048x256.Idx) = ix3 (pb t) (qn t n') ch := by
  have e := idx_facts t
  funext a; apply Fin.ext
  match a with
  | ⟨0, _⟩ => show win0_9.index t (0 : Fin 3) * 1 + 1 * 0 = t.val / 8; omega
  | ⟨1, _⟩ => show win0_9.index t (1 : Fin 3) * 256 + 1 * n'.val = t.val % 8 * 256 + n'.val; omega
  | ⟨2, _⟩ => show win0_9.index t (2 : Fin 3) * 256 + 1 * ch.val = ch.val; omega

/-! ## What a point writes back, the cover, the array -/

/-- WHAT POINT `t` WRITES BACK is block `t` of `K` of the arrays as the region finds them. -/
theorem flushed9_eq (c : Dev nD) (t : Fin cfg0.N) :
    (dats m 0 c).flushed 9 t = ((cfg0.win 9).blk t).view.read (Elt Ideal)
      (K (V m c main_v53) (V m c main_v45) (V m c main_v46) (V m c main_v47) (V m c main_v48)
         (V m c main_v49) (V m c main_v50) (V m c main_v51) (V m c main_v52)) := by
  rw [Value.flushed9]
  funext j
  obtain ⟨z, n', ch, rfl⟩ : ∃ (z : Fin 1) (n' ch : Fin 256), j = ix3 z n' ch := ⟨j 0, j 1, j 2, eq_ix3 j⟩
  obtain rfl : z = 0 := Subsingleton.elim _ _
  show out0_9 (F := Ideal) (iblk m c 0 t) (iblk m c 1 t) (iblk m c 2 t) (iblk m c 3 t) (iblk m c 4 t) (iblk m c 5 t) (iblk m c 6 t) (iblk m c 7 t) (iblk m c 8 t) (ix3 (0 : Fin 1) n' ch)
      = K (V m c main_v53) (V m c main_v45) (V m c main_v46) (V m c main_v47) (V m c main_v48)
          (V m c main_v49) (V m c main_v50) (V m c main_v51) (V m c main_v52) (((cfg0.win 9).blk t).view.emb (ix3 (0 : Fin 1) n' ch))
  rw [emb9 t n' ch]
  refine (Body.out_apply (iblk m c 0 t) (iblk m c 1 t) (iblk m c 2 t) (iblk m c 3 t) (iblk m c 4 t) (iblk m c 5 t) (iblk m c 6 t) (iblk m c 7 t) (iblk m c 8 t) n' ch).trans ?_
  rw [blk1_at m c t n', blk2_at m c t n', blk3_at m c t n', blk4_at m c t n', blk5_at m c t n', blk6_at m c t n', blk7_at m c t n', blk8_at m c t n']
  exact Finset.sum_congr rfl fun h _ => by rw [blk0_at m c t ch h]

/-- An index of the result is in point `t`'s block iff each coordinate is in the block's range on its axis. -/
theorem mem_blk9 (t : Fin cfg0.N) (i : S32x2048x256.Idx) :
    i ∈ ((cfg0.win 9).blk t).view.set ↔ ∀ a : Fin 3, win0_9.index t a * S1x256x256.size a ≤ (i a).val ∧ (i a).val < win0_9.index t a * S1x256x256.size a + S1x256x256.size a := by
  show i ∈ ((View.whole main_v54).slice (win0_9.rect t)).set ↔ _
  rw [View.set_slice_whole, Rect.mem_set_unit]
  exact Iff.rfl

/-- The result window's index map alone. -/
theorem idx9_facts : ∀ t : Fin cfg0.N,
    win0_9.index t (0 : Fin 3) = t.val / 8 ∧ win0_9.index t (1 : Fin 3) = t.val % 8 ∧ win0_9.index t (2 : Fin 3) = 0 :=
  (by decide +kernel : ∀ t : Fin grid0.N, _)

/-- Every index of the result lies in the block of the point `8·b + n / 256`. -/
theorem cover9 (i : S32x2048x256.Idx) : ∃ t : Fin cfg0.N, (cfg0.win 9).flush t = true ∧ i ∈ ((cfg0.win 9).blk t).view.set := by
  have h0 : (i 0).val < 32 := (i 0).isLt
  have h1 : (i 1).val < 2048 := (i 1).isLt
  have h2 : (i 2).val < 256 := (i 2).isLt
  have hN : cfg0.N = 256 := N_0
  obtain ⟨t, ht⟩ : ∃ t : Fin cfg0.N, t.val = (i 0).val * 8 + (i 1).val / 256 := ⟨⟨(i 0).val * 8 + (i 1).val / 256, by omega⟩, rfl⟩
  refine ⟨t, flush0_9 t, ?_⟩
  rw [mem_blk9]
  obtain ⟨e0, e1, e2⟩ := idx9_facts t
  intro a
  match a with
  | ⟨0, _⟩ =>
    show win0_9.index t (0 : Fin 3) * 1 ≤ (i 0).val ∧ (i 0).val < win0_9.index t (0 : Fin 3) * 1 + 1
    rw [e0]; omega
  | ⟨1, _⟩ =>
    show win0_9.index t (1 : Fin 3) * 256 ≤ (i 1).val ∧ (i 1).val < win0_9.index t (1 : Fin 3) * 256 + 256
    rw [e1]; omega
  | ⟨2, _⟩ =>
    show win0_9.index t (2 : Fin 3) * 256 ≤ (i 2).val ∧ (i 2).val < win0_9.index t (2 : Fin 3) * 256 + 256
    rw [e2]; omega

/-- After the run the result array is `K` of the arrays as the region finds them. -/
theorem final9 (c : Dev nD) :
    (dats m 0 c).arrAt 9 cfg0.N
      = K (V m c main_v53) (V m c main_v45) (V m c main_v46) (V m c main_v47) (V m c main_v48)
          (V m c main_v49) (V m c main_v50) (V m c main_v51) (V m c main_v52) :=
  (dats m 0 c).arrAt_eq_of_cover 9 _ (fun t _ => flushed9_eq m c t) cover9

end Cert.KernelIdeal.Array

end
-- ==== Proof.KernelHost.lean ====
/-
  The arrays the region finds, read at an index.

  Before the region the program computes, from the anchors `anc : [32, 2048, 2]` (x then y), the pixel coordinates
  `pix`, their floors and ceilings as 32-bit words, the offsets inside the cell, the four corners' flat pixel numbers
  `y · 64 + x` and the four bilinear weights, each laid out as `[32, 1, 2048]`; and it flattens the feature map
  `[32, 256, 64, 64]` to `[32, 256, 4096]`.  Read at `(b, 0, n)` (and `(b, c, h)` for the features) these are the scalar
  functions of the anchor `(anc[b,n,0], anc[b,n,1])` that the specification names.
-/
import proofs.«163682_j5995774345370_1_alg».proof.Proof.Gen.KernelIdeal.Frame
import proofs.«163682_j5995774345370_1_alg».proof.Proof.Coords
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.Host

open Cert.KernelIdeal Cert.KernelIdeal.Gen Idealize.ShloMosaic Idealize.ShloMosaic.TcCoe Idealize.ShloMosaic.ValueIdx Idealize.SL.Sem Cert.Bilinear

variable (m : (ℓ : Loc nD τ sig) → Buf (Elt Ideal) ℓ)

/-- The feature map and the anchors as launched, on core `c`. -/
abbrev fmArr (c : Dev nD) : S32x256x64x64.Idx → EReal := m ((c : Thread nD τ).loc main_arg0)
abbrev ancArr (c : Dev nD) : S32x2048x2.Idx → EReal := m ((c : Thread nD τ).loc main_arg1)

/-- The x and the y coordinate of query `n`'s anchor in batch `b`. -/
abbrev ax (c : Dev nD) (b : Fin 32) (n : Fin 2048) : EReal := ancArr m c (ix3 b n (0 : Fin 2))
abbrev ay (c : Dev nD) (b : Fin 32) (n : Fin 2048) : EReal := ancArr m c (ix3 b n (1 : Fin 2))

/-! ## The host stages as functions of the anchor array

Every array the region reads is built from the anchors `A : [32, 2048, 2]` by pointwise operations and changes of layout.
The shared stages are named here as functions of `A` and read at an index: the clipped pixel coordinates `P A`, their
floors `Lo A` and ceilings `Hi A` as words, and the offsets `Off A = P A − Lo A`.  At an index `i` they are the scalar
functions `pix`, `cellLo`, `cellHi`, `frac` of `A i`. -/

/-- A scalar broadcast to every anchor coordinate. -/
abbrev bc3 {α : Type} (x : S_.Idx → α) : S32x2048x2.Idx → α := broadcastInDim S32x2048x2 ![] bcast_S_S32x2048x2 x
/-- A scalar broadcast to every query. -/
abbrev bc2 {α : Type} (x : S_.Idx → α) : S32x2048.Idx → α := broadcastInDim S32x2048 ![] bcast_S_S32x2048 x

/-- A broadcast scalar reads the scalar everywhere (the scalar shape has no axis to match). -/
theorem bc3_apply {α : Type} (x : S_.Idx → α) (i : S32x2048x2.Idx) : bc3 x i = x ix0 :=
  broadcastInDim_apply _ _ x i ix0 (fun a => a.elim0)
theorem bc2_apply {α : Type} (x : S_.Idx → α) (i : S32x2048.Idx) : bc2 x i = x ix0 :=
  broadcastInDim_apply _ _ x i ix0 (fun a => a.elim0)

/-- The float word of `1`, as a scalar. -/
abbrev one : S_.Idx → EReal := constant (F := Ideal) S_ .f32 0x3F800000#32
/-- The row length `64`, as a scalar word. -/
abbrev c64 : S_.Idx → BitVec 32 := constantI S_ 32 64#32

theorem one_apply (i : S_.Idx) : one i = 1 := by
  show constant (F := Ideal) S_ .f32 0x3F800000#32 i = 1
  rw [constant_apply, ofBits_one]
theorem c64_apply (i : S_.Idx) : c64 i = 64#32 := rfl

/-- The clipped pixel coordinates `min 63 (max 0 (a · 63))` of every anchor coordinate. -/
def P (A : FVec Ideal S32x2048x2 .f32) : FVec Ideal S32x2048x2 .f32 :=
  minimumf (bc3 (constant (F := Ideal) S_ .f32 0x427C0000#32))
    (maximumf (bc3 (constant (F := Ideal) S_ .f32 0x00000000#32))
      (mulf A (bc3 (constant (F := Ideal) S_ .f32 0x427C0000#32))))

/-- At an index the pixel array is `pix` of the anchor coordinate: the three float words are `63`, `0` and `63`. -/
theorem P_apply (A : FVec Ideal S32x2048x2 .f32) (i : S32x2048x2.Idx) : P A i = pix (A i) := by
  unfold P
  rw [minimumf_apply, maximumf_apply, mulf_apply, bc3_apply, bc3_apply, constant_apply, constant_apply, ofBits_63, ofBits_zero]
  rfl

/-- Floors and ceilings of the pixel coordinates, as 32-bit words. -/
def Lo (A : FVec Ideal S32x2048x2 .f32) : IVec S32x2048x2 32 := fptosi 32 (Host.floor (P A))
def Hi (A : FVec Ideal S32x2048x2 .f32) : IVec S32x2048x2 32 := fptosi 32 (Host.ceil (P A))

theorem Lo_apply (A : FVec Ideal S32x2048x2 .f32) (i : S32x2048x2.Idx) : Lo A i = cellLo (A i) := by
  show Ideal.fptosi 32 (Ideal.liftRound Int.floor (P A i)) = _
  rw [P_apply]; rfl
theorem Hi_apply (A : FVec Ideal S32x2048x2 .f32) (i : S32x2048x2.Idx) : Hi A i = cellHi (A i) := by
  show Ideal.fptosi 32 (Ideal.liftRound Int.ceil (P A i)) = _
  rw [P_apply]; rfl

/-- The offsets inside the cell: the pixel coordinate less its floor, the floor read back as a real. -/
def Off (A : FVec Ideal S32x2048x2 .f32) : FVec Ideal S32x2048x2 .f32 := subf (P A) (sitofp .f32 (Lo A))

theorem Off_apply (A : FVec Ideal S32x2048x2 .f32) (i : S32x2048x2.Idx) : Off A i = frac (A i) := by
  show P A i - (((Lo A i).toInt : ℝ) : EReal) = _
  rw [P_apply, Lo_apply]; rfl

/-! ## The changes of layout

The x column (`[…, 0]`) and the y column (`[…, 1]`) of an array over the anchor coordinates are cut out as `[32, 2048, 1]`
and flattened to `[32, 2048]`; a query array `[32, 2048]` is then laid out as `[32, 1, 2048]`. -/

abbrev colX {α : Type} (X : S32x2048x2.Idx → α) : S32x2048.Idx → α :=
  shapeCast S32x2048 (extractStridedSlice S32x2048x1 ![0, 0, 0] X slices_S32x2048x2_S32x2048x1_0_0_0) shapeCasts_S32x2048x1_S32x2048
abbrev colY {α : Type} (X : S32x2048x2.Idx → α) : S32x2048.Idx → α :=
  shapeCast S32x2048 (extractStridedSlice S32x2048x1 ![0, 0, 1] X slices_S32x2048x2_S32x2048x1_0_0_1) shapeCasts_S32x2048x1_S32x2048

/-- The x column at query `(b, n)` is the array at `(b, n, 0)`: `(b, n)` and `(b, n, 0)` have the same row-major position
    `b · 2048 + n`, and the cut starts at offset `0` on the last axis. -/
theorem colX_apply {α : Type} (X : S32x2048x2.Idx → α) (b : Fin 32) (n : Fin 2048) :
    colX X (ix2 b n) = X (ix3 b n (0 : Fin 2)) := by
  refine (shapeCast_apply _ _ (ix2 b n) (ix3 b n (0 : Fin 1)) ?_).trans ?_
  · rw [Shape.rowMajor_val_three, Shape.rowMajor_val_two]
    show (b.val * 2048 + n.val) * 1 + 0 = b.val * 2048 + n.val
    omega
  · refine extractStridedSlice_apply _ X _ _ (ix3 b n (0 : Fin 2)) (fun a => ?_)
    match a with
    | ⟨0, _⟩ => exact (Nat.zero_add _).symm
    | ⟨1, _⟩ => exact (Nat.zero_add _).symm
    | ⟨2, _⟩ => rfl
/-- The y column at query `(b, n)` is the array at `(b, n, 1)`: the cut starts at offset `1` on the last axis. -/
theorem colY_apply {α : Type} (X : S32x2048x2.Idx → α) (b : Fin 32) (n : Fin 2048) :
    colY X (ix2 b n) = X (ix3 b n (1 : Fin 2)) := by
  refine (shapeCast_apply _ _ (ix2 b n) (ix3 b n (0 : Fin 1)) ?_).trans ?_
  · rw [Shape.rowMajor_val_three, Shape.rowMajor_val_two]
    show (b.val * 2048 + n.val) * 1 + 0 = b.val * 2048 + n.val
    omega
  · refine extractStridedSlice_apply _ X _ _ (ix3 b n (1 : Fin 2)) (fun a => ?_)
    match a with
    | ⟨0, _⟩ => exact (Nat.zero_add _).symm
    | ⟨1, _⟩ => exact (Nat.zero_add _).symm
    | ⟨2, _⟩ => rfl

/-- An array over the queries laid out as `[32, 1, 2048]`. -/
abbrev row3 {α : Type} (Y : S32x2048.Idx → α) : S32x1x2048.Idx → α :=
  broadcastInDim S32x1x2048 ![0, 2] bcast_S32x2048_S32x1x2048_0_2 Y

/-- At `(b, 0, n)` it reads the query array at `(b, n)`: the operand's axes go to axes `0` and `2`, neither of extent `1`. -/
theorem row3_apply {α : Type} (Y : S32x2048.Idx → α) (b : Fin 32) (n : Fin 2048) :
    row3 Y (ix3 b (0 : Fin 1) n) = Y (ix2 b n) := by
  refine broadcastInDim_apply _ _ Y _ (ix2 b n) (fun a => ?_)
  match a with
  | ⟨0, _⟩ => rfl
  | ⟨1, _⟩ => rfl

/-! ## What the region finds in each array, as one term over the launched arguments

Each array the host operations write is the composition of its operations over the launched arguments: the host
operations before the region are run in order, each buffer read where it was last written. -/

theorem v53_eq (c : Dev nD) : (V m c main_v53 : S32x256x4096.Idx → EReal)
    = shapeCast S32x256x4096 (fmArr m c) shapeCasts_S32x256x64x64_S32x256x4096 := by
  dsimp only [Gen.V]
  simp only [Gen.hostOps0, Gen.hostOps0_1, Gen.hostOps0_2, List.flatten_cons, List.flatten_nil, List.append_nil, List.cons_append,
    List.nil_append]
  after_results_simp
  rfl

/-- The corner indices: `y · 64 + x` with `y`, `x` the floor or the ceiling column. -/
theorem v45_eq (c : Dev nD) : (V m c main_v45 : S32x1x2048.Idx → BitVec 32)
    = row3 (addi (muli (colY (Lo (ancArr m c))) (bc2 c64)) (colX (Lo (ancArr m c)))) := by
  dsimp only [Gen.V]
  simp only [Gen.hostOps0, Gen.hostOps0_1, Gen.hostOps0_2, List.flatten_cons, List.flatten_nil, List.append_nil, List.cons_append,
    List.nil_append]
  after_results_simp
  rfl
theorem v46_eq (c : Dev nD) : (V m c main_v46 : S32x1x2048.Idx → BitVec 32)
    = row3 (addi (muli (colY (Lo (ancArr m c))) (bc2 c64)) (colX (Hi (ancArr m c)))) := by
  dsimp only [Gen.V]
  simp only [Gen.hostOps0, Gen.hostOps0_1, Gen.hostOps0_2, List.flatten_cons, List.flatten_nil, List.append_nil, List.cons_append,
    List.nil_append]
  after_results_simp
  rfl
theorem v47_eq (c : Dev nD) : (V m c main_v47 : S32x1x2048.Idx → BitVec 32)
    = row3 (addi (muli (colY (Hi (ancArr m c))) (bc2 c64)) (colX (Lo (ancArr m c)))) := by
  dsimp only [Gen.V]
  simp only [Gen.hostOps0, Gen.hostOps0_1, Gen.hostOps0_2, List.flatten_cons, List.flatten_nil, List.append_nil, List.cons_append,
    List.nil_append]
  after_results_simp
  rfl
theorem v48_eq (c : Dev nD) : (V m c main_v48 : S32x1x2048.Idx → BitVec 32)
    = row3 (addi (muli (colY (Hi (ancArr m c))) (bc2 c64)) (colX (Hi (ancArr m c)))) := by
  dsimp only [Gen.V]
  simp only [Gen.hostOps0, Gen.hostOps0_1, Gen.hostOps0_2, List.flatten_cons, List.flatten_nil, List.append_nil, List.cons_append,
    List.nil_append]
  after_results_simp
  rfl

/-- The weights: products of `dx` or `1 − dx` with `dy` or `1 − dy`, `dx` and `dy` the offset columns. -/
theorem v49_eq (c : Dev nD) : (V m c main_v49 : S32x1x2048.Idx → EReal)
    = row3 (mulf (subf (bc2 one) (colX (Off (ancArr m c)))) (subf (bc2 one) (colY (Off (ancArr m c))))) := by
  dsimp only [Gen.V]
  simp only [Gen.hostOps0, Gen.hostOps0_1, Gen.hostOps0_2, List.flatten_cons, List.flatten_nil, List.append_nil, List.cons_append,
    List.nil_append]
  after_results_simp
  rfl
theorem v50_eq (c : Dev nD) : (V m c main_v50 : S32x1x2048.Idx → EReal)
    = row3 (mulf (colX (Off (ancArr m c))) (subf (bc2 one) (colY (Off (ancArr m c))))) := by
  dsimp only [Gen.V]
  simp only [Gen.hostOps0, Gen.hostOps0_1, Gen.hostOps0_2, List.flatten_cons, List.flatten_nil, List.append_nil, List.cons_append,
    List.nil_append]
  after_results_simp
  rfl
theorem v51_eq (c : Dev nD) : (V m c main_v51 : S32x1x2048.Idx → EReal)
    = row3 (mulf (subf (bc2 one) (colX (Off (ancArr m c)))) (colY (Off (ancArr m c)))) := by
  dsimp only [Gen.V]
  simp only [Gen.hostOps0, Gen.hostOps0_1, Gen.hostOps0_2, List.flatten_cons, List.flatten_nil, List.append_nil, List.cons_append,
    List.nil_append]
  after_results_simp
  rfl
theorem v52_eq (c : Dev nD) : (V m c main_v52 : S32x1x2048.Idx → EReal)
    = row3 (mulf (colX (Off (ancArr m c))) (colY (Off (ancArr m c)))) := by
  dsimp only [Gen.V]
  simp only [Gen.hostOps0, Gen.hostOps0_1, Gen.hostOps0_2, List.flatten_cons, List.flatten_nil, List.append_nil, List.cons_append,
    List.nil_append]
  after_results_simp
  rfl

/-! ## The arrays read at an index -/

/-- The flattened feature map at `(b, ch, h)` is the feature map at `(b, ch, h / 64, h % 64)`: both have the row-major
    position `(b · 256 + ch) · 4096 + h`, since `h = (h / 64) · 64 + h % 64`. -/
theorem fm_at (c : Dev nD) (b : Fin 32) (ch : Fin 256) (h : Fin 4096) :
    (V m c main_v53 : S32x256x4096.Idx → EReal) (ix3 b ch h) = row (fmArr m c) b ch h := by
  rw [v53_eq]
  unfold row
  refine shapeCast_apply _ _ _ _ ?_
  rw [Shape.rowMajor_val_four, Shape.rowMajor_val_three]
  show ((b.val * 256 + ch.val) * 64 + h.val / 64) * 64 + h.val % 64 = (b.val * 256 + ch.val) * 4096 + h.val
  omega

/-- The four corner-index arrays at `(b, 0, n)`. -/
theorem idxLT_at (c : Dev nD) (b : Fin 32) (n : Fin 2048) :
    (V m c main_v45 : S32x1x2048.Idx → BitVec 32) (ix3 b (0 : Fin 1) n) = cLT (ax m c b n) (ay m c b n) := by
  rw [v45_eq, row3_apply]
  show colY (Lo (ancArr m c)) (ix2 b n) * bc2 c64 (ix2 b n) + colX (Lo (ancArr m c)) (ix2 b n) = _
  rw [colY_apply, colX_apply, bc2_apply, c64_apply, Lo_apply, Lo_apply]
  rfl
theorem idxRT_at (c : Dev nD) (b : Fin 32) (n : Fin 2048) :
    (V m c main_v46 : S32x1x2048.Idx → BitVec 32) (ix3 b (0 : Fin 1) n) = cRT (ax m c b n) (ay m c b n) := by
  rw [v46_eq, row3_apply]
  show colY (Lo (ancArr m c)) (ix2 b n) * bc2 c64 (ix2 b n) + colX (Hi (ancArr m c)) (ix2 b n) = _
  rw [colY_apply, colX_apply, bc2_apply, c64_apply, Lo_apply, Hi_apply]
  rfl
theorem idxLB_at (c : Dev nD) (b : Fin 32) (n : Fin 2048) :
    (V m c main_v47 : S32x1x2048.Idx → BitVec 32) (ix3 b (0 : Fin 1) n) = cLB (ax m c b n) (ay m c b n) := by
  rw [v47_eq, row3_apply]
  show colY (Hi (ancArr m c)) (ix2 b n) * bc2 c64 (ix2 b n) + colX (Lo (ancArr m c)) (ix2 b n) = _
  rw [colY_apply, colX_apply, bc2_apply, c64_apply, Hi_apply, Lo_apply]
  rfl
theorem idxRB_at (c : Dev nD) (b : Fin 32) (n : Fin 2048) :
    (V m c main_v48 : S32x1x2048.Idx → BitVec 32) (ix3 b (0 : Fin 1) n) = cRB (ax m c b n) (ay m c b n) := by
  rw [v48_eq, row3_apply]
  show colY (Hi (ancArr m c)) (ix2 b n) * bc2 c64 (ix2 b n) + colX (Hi (ancArr m c)) (ix2 b n) = _
  rw [colY_apply, colX_apply, bc2_apply, c64_apply, Hi_apply, Hi_apply]
  rfl

/-- The four weight arrays at `(b, 0, n)`. -/
theorem wLT_at (c : Dev nD) (b : Fin 32) (n : Fin 2048) :
    (V m c main_v49 : S32x1x2048.Idx → EReal) (ix3 b (0 : Fin 1) n) = wLT (ax m c b n) (ay m c b n) := by
  rw [v49_eq, row3_apply, mulf_apply, subf_apply, subf_apply, bc2_apply, one_apply, colX_apply, colY_apply, Off_apply, Off_apply]
  rfl
theorem wRT_at (c : Dev nD) (b : Fin 32) (n : Fin 2048) :
    (V m c main_v50 : S32x1x2048.Idx → EReal) (ix3 b (0 : Fin 1) n) = wRT (ax m c b n) (ay m c b n) := by
  rw [v50_eq, row3_apply, mulf_apply, subf_apply, bc2_apply, one_apply, colX_apply, colY_apply, Off_apply, Off_apply]
  rfl
theorem wLB_at (c : Dev nD) (b : Fin 32) (n : Fin 2048) :
    (V m c main_v51 : S32x1x2048.Idx → EReal) (ix3 b (0 : Fin 1) n) = wLB (ax m c b n) (ay m c b n) := by
  rw [v51_eq, row3_apply, mulf_apply, subf_apply, bc2_apply, one_apply, colX_apply, colY_apply, Off_apply, Off_apply]
  rfl
theorem wRB_at (c : Dev nD) (b : Fin 32) (n : Fin 2048) :
    (V m c main_v52 : S32x1x2048.Idx → EReal) (ix3 b (0 : Fin 1) n) = wRB (ax m c b n) (ay m c b n) := by
  rw [v52_eq, row3_apply, mulf_apply, colX_apply, colY_apply, Off_apply, Off_apply]
  rfl

end Cert.KernelIdeal.Host

end
-- ==== Proof.KernelValue.lean ====
/-
  The kernel's result array is the sampled feature map.

  After the run the result array is, element by element, the sum over all pixels of the query's four one-hot weight rows
  against a feature row (the blocks-to-array step), those index and weight rows are the specification's corner numbers and
  bilinear weights of the query's anchor and the feature row is the feature map's row (the arrays the region finds, read at
  an index); so the element is the weighted sum of the specification, and on a feature map of real numbers the weighted sum
  is the interpolation of the four corners.
-/
import proofs.«163682_j5995774345370_1_alg».proof.Proof.KernelArray
import proofs.«163682_j5995774345370_1_alg».proof.Proof.KernelHost
import proofs.«163682_j5995774345370_1_alg».proof.Proof.Coords
import Idealize.ShloMosaic.Lib.ValueIdx

noncomputable section

open scoped BigOperators

namespace Cert.KernelIdeal.Result

open Cert.KernelIdeal Cert.KernelIdeal.Gen Idealize.ShloMosaic Idealize.ShloMosaic.TcCoe Idealize.ShloMosaic.ValueIdx Idealize.SL.Sem Cert.Bilinear

variable (m : (ℓ : Loc nD τ sig) → Buf (Elt Ideal) ℓ) (ρ : Dev nD → PrngReg)

/-- On a feature map of real numbers the result array is `G` of the two arguments. -/
theorem kernel_value (c : Dev nD) (hfin : ∀ i, ∃ r : ℝ, Host.fmArr m c i = (r : EReal)) :
    (dats m 0 c).arrAt 9 cfg0.N = G (Host.fmArr m c) (Host.ancArr m c) := by
  rw [Array.final9]
  funext i
  obtain ⟨b, n, ch, rfl⟩ : ∃ (b : Fin 32) (n : Fin 2048) (ch : Fin 256), i = ix3 b n ch := ⟨i 0, i 1, i 2, eq_ix3 i⟩
  show (∑ h : Fin 4096,
      hot4 ((V m c main_v45 : S32x1x2048.Idx → BitVec 32) (ix3 b (0 : Fin 1) n)) ((V m c main_v46 : S32x1x2048.Idx → BitVec 32) (ix3 b (0 : Fin 1) n))
           ((V m c main_v47 : S32x1x2048.Idx → BitVec 32) (ix3 b (0 : Fin 1) n)) ((V m c main_v48 : S32x1x2048.Idx → BitVec 32) (ix3 b (0 : Fin 1) n))
           ((V m c main_v49 : S32x1x2048.Idx → EReal) (ix3 b (0 : Fin 1) n)) ((V m c main_v50 : S32x1x2048.Idx → EReal) (ix3 b (0 : Fin 1) n))
           ((V m c main_v51 : S32x1x2048.Idx → EReal) (ix3 b (0 : Fin 1) n)) ((V m c main_v52 : S32x1x2048.Idx → EReal) (ix3 b (0 : Fin 1) n)) h
        * (V m c main_v53 : S32x256x4096.Idx → EReal) (ix3 b ch h))
      = sample (row (Host.fmArr m c) b ch) (Host.ax m c b n) (Host.ay m c b n)
  rw [Host.idxLT_at m c b n, Host.idxRT_at m c b n, Host.idxLB_at m c b n, Host.idxRB_at m c b n,
    Host.wLT_at m c b n, Host.wRT_at m c b n, Host.wLB_at m c b n, Host.wRB_at m c b n]
  refine Eq.trans (Finset.sum_congr rfl fun h _ => by rw [Host.fm_at m c b ch h]) ?_
  exact weighted_eq_sample (row (Host.fmArr m c) b ch) (fun h => hfin _) (Host.ax m c b n) (Host.ay m c b n)

/-- The kernel's run with its result named: every execution ends with the result array at `G` of the arguments, the
    arguments unchanged. -/
theorem run (hfin : ∀ (c : Dev nD) i, ∃ r : ℝ, Host.fmArr m c i = (r : EReal)) :
    θ_run defs (onTc (τ := τ) (main (F := Ideal))) ⟨m, fun _ => 0, ρ⟩ fun r => ∀ c : Dev nD,
      r.2.mem ((c : Thread nD τ).loc main_v54) = G (Host.fmArr m c) (Host.ancArr m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (kernel_value m c (hfin c)), (h c).2⟩) (Value.run_blocks m ρ)

end Cert.KernelIdeal.Result

end
-- ==== Proof.RefCoords.lean ====
/-
  The reference's coordinate arrays, read at an index.

  From the anchors `anc : [32, 2048, 2]` (x then y) the reference computes the clipped pixel coordinates, their floors and
  ceilings as 32-bit words, the offsets inside the cell, and for each of its four gathers the flat pixel number
  `y · 64 + x` of one corner, laid out as `[32, 1, 2048]`.  Read at an index these are the scalar functions of the anchor
  that the specification names.  (The clip's bounds are the integers 0 and 63 converted to floats.)
-/
import proofs.«163682_j5995774345370_1_alg».proof.Proof.RefRead
import proofs.«163682_j5995774345370_1_alg».proof.Proof.Coords
import Idealize.ShloMosaic.Lib.ValueIdx
import Idealize.ShloMosaic.Lib.ValueLayout
import Idealize.ShloMosaic.Lib.Pipeline.Value

noncomputable section

namespace Cert.ReferenceIdeal.Coords

open Cert.ReferenceIdeal Cert.ReferenceIdeal.ReadP Idealize.ShloMosaic Idealize.ShloMosaic.ValueIdx Cert.Bilinear

variable (anc : S32x2048x2.Idx → EReal)

/-- The clipped pixel coordinate, its floor and ceiling words, and the offset, at `(b, n, d)` (`d = 0`: x, `d = 1`: y). -/
theorem pix_at (b : Fin 32) (n : Fin 2048) (d : Fin 2) :
    val_main_v2 (F := Ideal) anc (ix3 b n d) = pix (anc (ix3 b n d)) := by
  rw [val_main_v2_apply, val_main_call0_v4_apply, val_main_call0_v3_apply, val_main_c_0_apply,
    val_main_call0_v2_apply, val_main_call0_v1_apply, val_main_call0_v0_apply, val_main_c_apply,
    val_main_v1_apply, val_main_v0_apply, val_main_cst_apply]
  -- on the extended reals: min (float 63) (max (float 0) (a · 63)), the bounds being the integers 63 and 0 made real
  show min ((((63#32 : BitVec 32).toInt : ℝ)) : EReal) (max ((((0#32 : BitVec 32).toInt : ℝ)) : EReal)
    (anc (ix3 b n d) * Ideal.ofBits .f32 0x427C0000#32)) = pix (anc (ix3 b n d))
  have h63 : (63#32 : BitVec 32).toInt = 63 := by decide
  have h0 : (0#32 : BitVec 32).toInt = 0 := by decide
  rw [ofBits_63, h63, h0]
  unfold pix
  norm_num
theorem lo_at (b : Fin 32) (n : Fin 2048) (d : Fin 2) :
    val_main_v4 (F := Ideal) anc (ix3 b n d) = cellLo (anc (ix3 b n d)) := by
  -- the floor of the pixel coordinate, converted to a 32-bit word
  rw [val_main_v4_apply, val_main_v3_apply, pix_at]
  rfl
theorem hi_at (b : Fin 32) (n : Fin 2048) (d : Fin 2) :
    val_main_v6 (F := Ideal) anc (ix3 b n d) = cellHi (anc (ix3 b n d)) := by
  -- the ceiling of the pixel coordinate, converted to a 32-bit word
  rw [val_main_v6_apply, val_main_v5_apply, pix_at]
  rfl
theorem off_at (b : Fin 32) (n : Fin 2048) (d : Fin 2) :
    val_main_v41 (F := Ideal) anc (ix3 b n d) = frac (anc (ix3 b n d)) := by
  -- the pixel coordinate minus its floor word read back as a real
  rw [val_main_v41_apply, val_main_v40_apply, pix_at, lo_at]
  rfl

/-! ## The four coordinate planes `[32, 2048]`

  Component 0 (x) or 1 (y) of the floor words (left, top) or of the ceiling words (right, bottom), with the unit axis
  the slice leaves removed by a reshape. -/

/-- The left x cell coordinate at `(b, n)`. -/
theorem xlt_at (b : Fin 32) (n : Fin 2048) :
    val_main_v8 (F := Ideal) anc (ix2 b n) = cellLo (anc (ix3 b n (0 : Fin 2))) := by
  rw [val_main_v8_apply, val_main_v7_apply]
  have hb := b.isLt
  have hn := n.isLt
  -- the flat position b · 2048 + n of (b, n) splits back into (b, n, 0); the slice then reads component 0
  have h : idx_main_v7 (idx_main_v8 (ix2 b n)) = ix3 b n (0 : Fin 2) :=
    funext fun a => Fin.ext (by
      match a with
      | ⟨0, _⟩ => show (b.val * 2048 + n.val) / 2048 = b.val; omega
      | ⟨1, _⟩ => show (b.val * 2048 + n.val) / 1 % 2048 = n.val; omega
      | ⟨2, _⟩ => rfl)
  rw [h, lo_at]
/-- The top y cell coordinate at `(b, n)`. -/
theorem ylt_at (b : Fin 32) (n : Fin 2048) :
    val_main_v10 (F := Ideal) anc (ix2 b n) = cellLo (anc (ix3 b n (1 : Fin 2))) := by
  rw [val_main_v10_apply, val_main_v9_apply]
  have hb := b.isLt
  have hn := n.isLt
  -- the flat position b · 2048 + n of (b, n) splits back into (b, n, 0); the slice then reads component 1
  have h : idx_main_v9 (idx_main_v10 (ix2 b n)) = ix3 b n (1 : Fin 2) :=
    funext fun a => Fin.ext (by
      match a with
      | ⟨0, _⟩ => show (b.val * 2048 + n.val) / 2048 = b.val; omega
      | ⟨1, _⟩ => show (b.val * 2048 + n.val) / 1 % 2048 = n.val; omega
      | ⟨2, _⟩ => rfl)
  rw [h, lo_at]
/-- The right x cell coordinate at `(b, n)`. -/
theorem xrb_at (b : Fin 32) (n : Fin 2048) :
    val_main_v12 (F := Ideal) anc (ix2 b n) = cellHi (anc (ix3 b n (0 : Fin 2))) := by
  rw [val_main_v12_apply, val_main_v11_apply]
  have hb := b.isLt
  have hn := n.isLt
  -- the flat position b · 2048 + n of (b, n) splits back into (b, n, 0); the slice then reads component 0
  have h : idx_main_v11 (idx_main_v12 (ix2 b n)) = ix3 b n (0 : Fin 2) :=
    funext fun a => Fin.ext (by
      match a with
      | ⟨0, _⟩ => show (b.val * 2048 + n.val) / 2048 = b.val; omega
      | ⟨1, _⟩ => show (b.val * 2048 + n.val) / 1 % 2048 = n.val; omega
      | ⟨2, _⟩ => rfl)
  rw [h, hi_at]
/-- The bottom y cell coordinate at `(b, n)`. -/
theorem yrb_at (b : Fin 32) (n : Fin 2048) :
    val_main_v14 (F := Ideal) anc (ix2 b n) = cellHi (anc (ix3 b n (1 : Fin 2))) := by
  rw [val_main_v14_apply, val_main_v13_apply]
  have hb := b.isLt
  have hn := n.isLt
  -- the flat position b · 2048 + n of (b, n) splits back into (b, n, 0); the slice then reads component 1
  have h : idx_main_v13 (idx_main_v14 (ix2 b n)) = ix3 b n (1 : Fin 2) :=
    funext fun a => Fin.ext (by
      match a with
      | ⟨0, _⟩ => show (b.val * 2048 + n.val) / 2048 = b.val; omega
      | ⟨1, _⟩ => show (b.val * 2048 + n.val) / 1 % 2048 = n.val; omega
      | ⟨2, _⟩ => rfl)
  rw [h, hi_at]

/-- The four gathers' index arrays at `(b, 0, n)`: left-top, right-bottom, left-bottom, right-top, in program order. -/
theorem kLT_at (b : Fin 32) (n : Fin 2048) :
    val_main_v19 (F := Ideal) anc (ix3 b (0 : Fin 1) n) = cLT (anc (ix3 b n (0 : Fin 2))) (anc (ix3 b n (1 : Fin 2))) := by
  rw [val_main_v19_apply]
  -- the inserted unit axis is dropped: (b, 0, n) reads (b, n)
  have h : idx_main_v19 (ix3 b (0 : Fin 1) n) = ix2 b n :=
    funext fun a => Fin.ext (by
      match a with
      | ⟨0, _⟩ => rfl
      | ⟨1, _⟩ => rfl)
  -- y · 64 + x on 32-bit words, with the row length 64 a broadcast constant
  rw [h, val_main_v18_apply, val_main_v17_apply, val_main_v16_apply, val_main_c_1_apply, ylt_at, xlt_at]
  rfl
theorem kRB_at (b : Fin 32) (n : Fin 2048) :
    val_main_v25 (F := Ideal) anc (ix3 b (0 : Fin 1) n) = cRB (anc (ix3 b n (0 : Fin 2))) (anc (ix3 b n (1 : Fin 2))) := by
  rw [val_main_v25_apply]
  -- the inserted unit axis is dropped: (b, 0, n) reads (b, n)
  have h : idx_main_v25 (ix3 b (0 : Fin 1) n) = ix2 b n :=
    funext fun a => Fin.ext (by
      match a with
      | ⟨0, _⟩ => rfl
      | ⟨1, _⟩ => rfl)
  -- y · 64 + x on 32-bit words, with the row length 64 a broadcast constant
  rw [h, val_main_v24_apply, val_main_v23_apply, val_main_v22_apply, val_main_c_2_apply, yrb_at, xrb_at]
  rfl
theorem kLB_at (b : Fin 32) (n : Fin 2048) :
    val_main_v31 (F := Ideal) anc (ix3 b (0 : Fin 1) n) = cLB (anc (ix3 b n (0 : Fin 2))) (anc (ix3 b n (1 : Fin 2))) := by
  rw [val_main_v31_apply]
  -- the inserted unit axis is dropped: (b, 0, n) reads (b, n)
  have h : idx_main_v31 (ix3 b (0 : Fin 1) n) = ix2 b n :=
    funext fun a => Fin.ext (by
      match a with
      | ⟨0, _⟩ => rfl
      | ⟨1, _⟩ => rfl)
  -- y · 64 + x on 32-bit words, with the row length 64 a broadcast constant
  rw [h, val_main_v30_apply, val_main_v29_apply, val_main_v28_apply, val_main_c_3_apply, yrb_at, xlt_at]
  rfl
theorem kRT_at (b : Fin 32) (n : Fin 2048) :
    val_main_v37 (F := Ideal) anc (ix3 b (0 : Fin 1) n) = cRT (anc (ix3 b n (0 : Fin 2))) (anc (ix3 b n (1 : Fin 2))) := by
  rw [val_main_v37_apply]
  -- the inserted unit axis is dropped: (b, 0, n) reads (b, n)
  have h : idx_main_v37 (ix3 b (0 : Fin 1) n) = ix2 b n :=
    funext fun a => Fin.ext (by
      match a with
      | ⟨0, _⟩ => rfl
      | ⟨1, _⟩ => rfl)
  -- y · 64 + x on 32-bit words, with the row length 64 a broadcast constant
  rw [h, val_main_v36_apply, val_main_v35_apply, val_main_v34_apply, val_main_c_4_apply, ylt_at, xrb_at]
  rfl

end Cert.ReferenceIdeal.Coords

end
-- ==== Proof.RefTake.lean ====
/-
  The reference's four gathers, read at an index.

  Each gather takes, along the flattened pixel axis of the feature map `[32, 256, 4096]`, the pixel whose number an index
  array `[32, 1, 2048]` names: a negative number is first wrapped by `+ 4096`, the gather clamps its start index into
  `[0, 4095]`, and a result whose (wrapped) number was outside `[0, 4095]` is replaced by a filler.  For a number already in
  `[0, 4095]` none of this changes anything: element `(b, n, c)` of the transposed result is the feature map's pixel
  `(b, c, k[b, 0, n])`.
-/
import proofs.«163682_j5995774345370_1_alg».proof.Proof.RefRead
import proofs.«163682_j5995774345370_1_alg».proof.Proof.Coords
import Idealize.ShloMosaic.Lib.ValueIdx
import Idealize.ShloMosaic.Lib.ValueLayout
import Idealize.ShloMosaic.Lib.Pipeline.Value
import Idealize.ShloMosaic.Lib.ReduceAll

noncomputable section

namespace Cert.ReferenceIdeal.Take

open Cert.ReferenceIdeal Cert.ReferenceIdeal.ReadP Idealize.ShloMosaic Idealize.ShloMosaic.ValueIdx Cert.Bilinear

/-! ## The two operations read by hand: the batched gather and the mask's reduction -/

local notation "gd" => gather_S32x256x4096_S32x2048x1_S32x256x2048_1_2_0_0_2_2_12561

/-- THE BATCHED GATHER READ AT `(b, c, n)`. Operand `[32, 256, 4096]`, start indices `[32, 2048, 1]`, result
    `[32, 256, 2048]`: axis 0 is a batching axis on both sides (the result's `b`), axis 1 of the operand is the one offset
    axis (slice size 256, the result's `c`), and axis 2 is collapsed and is the one axis the start index names. So the
    operand index is `(b, c, s)` with `s` the start index word `idx[b, n, 0]` read signed and clamped into `[0, 4095]`. -/
theorem gather_at {α : Type} {w : Nat} (x : S32x256x4096.Idx → α) (idx : IVec S32x2048x1 w)
    (b : Fin 32) (c : Fin 256) (n : Fin 2048) :
    Host.gather gather_S32x256x4096_S32x2048x1_S32x256x2048_1_2_0_0_2_2_12561 x idx (ix3 b c n)
      = x (ix3 b c ⟨min (idx (ix3 b n (0 : Fin 1))).toInt.toNat 4095, by omega⟩) := by
  unfold Host.gather
  congr 1
  funext a
  refine Fin.ext ?_
  match a with
  | ⟨0, _⟩ =>
    show GatherDims.start gd (ix3 b c n) idx (0 : Fin 3) + GatherDims.batchCoord gd (ix3 b c n) (0 : Fin 3)
      + GatherDims.offCoord gd (ix3 b c n) (0 : Fin 3) = b.val
    rw [GatherDims.start_batching _ _ _ _ (List.mem_singleton.mpr rfl),
      GatherDims.offCoord_eq_zero _ _ _ (fun h => ((GatherDims.mem_sKept _ _).mp h).2 (List.mem_singleton.mpr rfl))]
    rw [Nat.zero_add, Nat.add_zero]
    rfl
  | ⟨1, _⟩ =>
    show GatherDims.start gd (ix3 b c n) idx (1 : Fin 3) + GatherDims.batchCoord gd (ix3 b c n) (1 : Fin 3)
      + GatherDims.offCoord gd (ix3 b c n) (1 : Fin 3) = c.val
    rw [GatherDims.batchCoord_eq_zero _ _ _ (by decide), Nat.add_zero]
    unfold GatherDims.start
    rw [dif_neg (by decide), Nat.zero_add]
    rfl
  | ⟨2, _⟩ =>
    show GatherDims.start gd (ix3 b c n) idx (2 : Fin 3) + GatherDims.batchCoord gd (ix3 b c n) (2 : Fin 3)
      + GatherDims.offCoord gd (ix3 b c n) (2 : Fin 3) = min (idx (ix3 b n (0 : Fin 1))).toInt.toNat 4095
    rw [GatherDims.batchCoord_eq_zero _ _ _ (by decide),
      GatherDims.offCoord_eq_zero _ _ _ (fun h => ((GatherDims.mem_sKept _ _).mp h).1 (List.mem_singleton.mpr rfl))]
    simp only [Nat.add_zero]
    unfold GatherDims.start
    rw [dif_pos (show (2 : Fin 3) ∈ GatherDims.startIndexMap gd from List.mem_singleton.mpr rfl)]
    have hsi : GatherDims.siIdx gd (ix3 b c n) ⟨List.idxOf (2 : Fin 3) (GatherDims.startIndexMap gd),
        List.idxOf_lt_length_iff.2 (List.mem_singleton.mpr rfl)⟩ = ix3 b n (0 : Fin 1) := by
      funext q; refine Fin.ext ?_
      match q with
      | ⟨0, _⟩ => rfl
      | ⟨1, _⟩ => rfl
      | ⟨2, _⟩ => rfl
    rw [hsi]
    rfl

/-- A left fold by `and` from 1 over words that are all 1 is 1. -/
theorem foldl_andi_one {ι : Type} (f : ι → BitVec 1) :
    ∀ (l : List ι), (∀ i ∈ l, f i = 1#1) → l.foldl (fun r i => IntOp.andi r (f i)) 1#1 = 1#1
  | [], _ => rfl
  | a :: l, h => by
    rw [List.foldl_cons, h a List.mem_cons_self]
    exact foldl_andi_one f l (fun i hi => h i (List.mem_cons_of_mem _ hi))

/-- The `and` over the size-one last axis, from 1: it is 1 at `(b, n)` when the one word `(b, n, 0)` is. -/
theorem reduce_andi_one (x : S32x2048x1.Idx → BitVec 1) (init : S_.Idx → BitVec 1) (hinit : ∀ i, init i = 1#1)
    (h : S32x2048x1.ReducesTo [2] S32x2048) (hu : 0 < S_.numel)
    (b : Fin 32) (n : Fin 2048) (hx : x (ix3 b n (0 : Fin 1)) = 1#1) :
    Host.reduce IntOp.andi x init h hu (ix2 b n) = 1#1 := by
  rw [Host.reduce_eq_foldl, hinit]
  refine foldl_andi_one x _ (fun i hi => ?_)
  rw [List.mem_filter, decide_eq_true_eq] at hi
  have hd := hi.2
  have h0 : (i 0).val = b.val := by
    rw [← h.drop_apply_val_of_eq i (0 : Fin 2) (0 : Fin 3), hd]
  have h1 : (i 1).val = n.val := by
    rw [← h.drop_apply_val_of_eq i (1 : Fin 2) (1 : Fin 3), hd]
  have h2 : (i 2).val = 0 := by
    have : (i 2).val < 1 := (i 2).isLt
    omega
  have e : i = ix3 b n (0 : Fin 1) := by
    funext a
    match a with
    | ⟨0, _⟩ => exact Fin.ext h0
    | ⟨1, _⟩ => exact Fin.ext h1
    | ⟨2, _⟩ => exact Fin.ext h2
  rw [e]; exact hx

/-! ## One `take_along_axis`, as a function of the feature array and the index array -/

/-- The index array as the gather reads it: a negative index wrapped by `+ 4096`, recast to `[32, 2048, 1]`. -/
def wrapped (k : IVec S32x1x2048 32) : IVec S32x2048x1 32 :=
  shapeCast S32x2048x1
    (select (cmpi .slt k (broadcastInDim S32x1x2048 ![] Gen.bcast_S_S32x1x2048 (constantI S_ 32 0#32)))
      (addi k (broadcastInDim S32x1x2048 ![] Gen.bcast_S_S32x1x2048 (constantI S_ 32 4096#32))) k)
    Gen.shapeCasts_S32x1x2048_S32x2048x1

/-- The mask "the wrapped index is in `[0, 4095]`", reduced by `and` over the size-one last axis. -/
def inRange (k5 : IVec S32x2048x1 32) : IVec S32x2048 1 :=
  Host.reduce IntOp.andi
    (andi (cmpi .sge k5 (broadcastInDim S32x2048x1 ![] Gen.bcast_S_S32x2048x1 (constantI S_ 32 0#32)))
      (cmpi .sle k5 (broadcastInDim S32x2048x1 ![0, 1, 2] Gen.bcast_S1x1x1_S32x2048x1_0_1_2
        (broadcastInDim S1x1x1 ![2] Gen.bcast_S1_S1x1x1_2 (constantI S1 32 4095#32)))))
    (constantI S_ 1 1#1) Gen.reducesTo_S32x2048x1_S32x2048_d2 Gen.h_S_

/-- The whole call: gather, filler where the mask is off, transposed to `[32, 2048, 256]`. -/
def takeRef (f3 : S32x256x4096.Idx → EReal) (k : IVec S32x1x2048 32) : S32x2048x256.Idx → EReal :=
  transpose S32x2048x256 [0, 2, 1]
    (select (broadcastInDim S32x256x2048 ![0, 2] Gen.bcast_S32x2048_S32x256x2048_0_2 (inRange (wrapped k)))
      (Host.gather gather_S32x256x4096_S32x2048x1_S32x256x2048_1_2_0_0_2_2_12561 f3 (wrapped k))
      (broadcastInDim S32x256x2048 ![] Gen.bcast_S_S32x256x2048 (constant (F := Ideal) S_ .f32 0x7FC00000#32)))
    Gen.transposes_S32x256x2048_S32x2048x256_0_2_1

/-- An index in `[0, 4095]` is not wrapped: the gather's index word at `(b, n, 0)` is the index array's at `(b, 0, n)`. -/
theorem wrapped_at (k : IVec S32x1x2048 32) (b : Fin 32) (n : Fin 2048) (hk : 0 ≤ (k (ix3 b (0 : Fin 1) n)).toInt) :
    wrapped k (ix3 b n (0 : Fin 1)) = k (ix3 b (0 : Fin 1) n) := by
  unfold wrapped
  rw [shapeCast_apply _ Gen.shapeCasts_S32x1x2048_S32x2048x1 (ix3 b n (0 : Fin 1)) (ix3 b (0 : Fin 1) n)
    (by rewrite [Shape.rowMajor_val_three, Shape.rowMajor_val_three]
        show (b.val * 1 + 0) * 2048 + n.val = (b.val * 2048 + n.val) * 1 + 0
        omega)]
  show Scalar.select (IntOp.cmpi .slt (k (ix3 b (0 : Fin 1) n)) 0#32) _ _ = _
  have h0 : IntOp.cmpi .slt (k (ix3 b (0 : Fin 1) n)) 0#32 = 0#1 :=
    eq_zero_of_ne_one (fun h => by
      have := IntOp.cmpi_slt.1 h
      have h00 : (0#32).toInt = 0 := by decide
      omega)
  rw [h0, select_zero]

/-- The mask is on at `(b, n)` when the gather's index word there is in `[0, 4095]`. -/
theorem inRange_at (k5 : IVec S32x2048x1 32) (b : Fin 32) (n : Fin 2048)
    (hk : 0 ≤ (k5 (ix3 b n (0 : Fin 1))).toInt ∧ (k5 (ix3 b n (0 : Fin 1))).toInt ≤ 4095) :
    inRange k5 (ix2 b n) = 1#1 := by
  unfold inRange
  refine reduce_andi_one _ _ (fun _ => rfl) _ _ b n ?_
  show IntOp.andi (IntOp.cmpi .sge (k5 (ix3 b n (0 : Fin 1))) 0#32) (IntOp.cmpi .sle (k5 (ix3 b n (0 : Fin 1))) 4095#32) = 1#1
  have h0 : (0#32).toInt = 0 := by decide
  have h1 : (4095#32).toInt = 4095 := by decide
  exact IntOp.andi_eq_one.2 ⟨IntOp.cmpi_sge.2 (by omega), IntOp.cmpi_sle.2 (by omega)⟩

/-- THE CALL READ AT `(b, n, c)`: for an index `k[b, 0, n]` in `[0, 4095]`, the feature array's element `(b, c, k[b, 0, n])`. -/
theorem takeRef_at (f3 : S32x256x4096.Idx → EReal) (k : IVec S32x1x2048 32) (b : Fin 32) (n : Fin 2048) (c : Fin 256)
    (hk : 0 ≤ (k (ix3 b (0 : Fin 1) n)).toInt ∧ (k (ix3 b (0 : Fin 1) n)).toInt ≤ 4095) :
    takeRef f3 k (ix3 b n c) = f3 (ix3 b c (pick (k (ix3 b (0 : Fin 1) n)))) := by
  have hw := wrapped_at k b n hk.1
  unfold takeRef
  rw [transpose_ix3_021_apply, select_apply]
  rw [broadcastInDim_apply _ Gen.bcast_S32x2048_S32x256x2048_0_2 (inRange (wrapped k)) (ix3 b c n) (ix2 b n)
    (fun a => match a with
      | ⟨0, _⟩ => by show b.val = if (32 : Nat) = 1 then 0 else b.val; rw [if_neg (by decide)]
      | ⟨1, _⟩ => by show n.val = if (2048 : Nat) = 1 then 0 else n.val; rw [if_neg (by decide)])]
  rw [inRange_at (wrapped k) b n (by rw [hw]; exact hk), select_one, gather_at]
  refine congrArg (fun h => f3 (ix3 b c h)) (Fin.ext ?_)
  show min (wrapped k (ix3 b n (0 : Fin 1))).toInt.toNat 4095 = (pick (k (ix3 b (0 : Fin 1) n))).val
  rw [hw, (pick_val hk).1]
  omega

/-! ## The four calls -/

variable (fm : S32x256x64x64.Idx → EReal) (anc : S32x2048x2.Idx → EReal)

/-- The feature map reshaped to `[32, 256, 4096]`, at `(b, c, h)`: pixel `h` of the feature map's plane `(b, c)`. -/
theorem v15_row (b : Fin 32) (c : Fin 256) (h : Fin 4096) :
    val_main_v15 (F := Ideal) fm (ix3 b c h) = row fm b c h := by
  rw [val_main_v15_apply]
  unfold row
  refine congrArg fm (funext fun a => Fin.ext ?_)
  have hb := b.isLt
  have hc := c.isLt
  have hh := h.isLt
  match a with
  | ⟨0, _⟩ => show ((b.val * 256 + c.val) * 4096 + h.val) / 1048576 = b.val; omega
  | ⟨1, _⟩ => show ((b.val * 256 + c.val) * 4096 + h.val) / 4096 % 256 = c.val; omega
  | ⟨2, _⟩ => show ((b.val * 256 + c.val) * 4096 + h.val) / 64 % 64 = h.val / 64; omega
  | ⟨3, _⟩ => show ((b.val * 256 + c.val) * 4096 + h.val) % 64 = h.val % 64; omega

/-- The first call is `takeRef` of the reshaped feature map and the first index array. -/
theorem v21_eq : val_main_v21 (F := Ideal) fm anc
    = takeRef (val_main_v15 (F := Ideal) fm) (val_main_v19 (F := Ideal) anc) := by
  unfold val_main_v21 val_main_v20 val_main_call1_v14 val_main_call1_v15 val_main_call1_cst val_main_call1_v13 val_main_call1_v12
      val_main_call1_c_3 val_main_call1_v11 val_main_call1_v10 val_main_call1_v9 val_main_call1_v8 val_main_call1_c_1
      val_main_call1_v7 val_main_call1_v6 val_main_call1_c_2 val_main_call1_v5 val_main_call1_v4 val_main_call1_v3
      val_main_call1_v2 val_main_call1_c_0 val_main_call1_v1 val_main_call1_v0 val_main_call1_c
    takeRef inRange wrapped
  rfl

/-- The first gather (its index array is `val_main_v19`), transposed to `[32, 2048, 256]`. -/
theorem take1_at (b : Fin 32) (n : Fin 2048) (c : Fin 256)
    (hk : 0 ≤ (val_main_v19 (F := Ideal) anc (ix3 b (0 : Fin 1) n)).toInt ∧ (val_main_v19 (F := Ideal) anc (ix3 b (0 : Fin 1) n)).toInt ≤ 4095) :
    val_main_v21 (F := Ideal) fm anc (ix3 b n c) = row fm b c (pick (val_main_v19 (F := Ideal) anc (ix3 b (0 : Fin 1) n))) := by
  rw [v21_eq, takeRef_at _ _ b n c hk, v15_row]

/-- The second call is `takeRef` of the reshaped feature map and the second index array. -/
theorem v27_eq : val_main_v27 (F := Ideal) fm anc
    = takeRef (val_main_v15 (F := Ideal) fm) (val_main_v25 (F := Ideal) anc) := by
  unfold val_main_v27 val_main_v26 val_main_call2_v14 val_main_call2_v15 val_main_call2_cst val_main_call2_v13 val_main_call2_v12
      val_main_call2_c_3 val_main_call2_v11 val_main_call2_v10 val_main_call2_v9 val_main_call2_v8 val_main_call2_c_1
      val_main_call2_v7 val_main_call2_v6 val_main_call2_c_2 val_main_call2_v5 val_main_call2_v4 val_main_call2_v3
      val_main_call2_v2 val_main_call2_c_0 val_main_call2_v1 val_main_call2_v0 val_main_call2_c
    takeRef inRange wrapped
  rfl

/-- The second gather (index array `val_main_v25`). -/
theorem take2_at (b : Fin 32) (n : Fin 2048) (c : Fin 256)
    (hk : 0 ≤ (val_main_v25 (F := Ideal) anc (ix3 b (0 : Fin 1) n)).toInt ∧ (val_main_v25 (F := Ideal) anc (ix3 b (0 : Fin 1) n)).toInt ≤ 4095) :
    val_main_v27 (F := Ideal) fm anc (ix3 b n c) = row fm b c (pick (val_main_v25 (F := Ideal) anc (ix3 b (0 : Fin 1) n))) := by
  rw [v27_eq, takeRef_at _ _ b n c hk, v15_row]

/-- The third call is `takeRef` of the reshaped feature map and the third index array. -/
theorem v33_eq : val_main_v33 (F := Ideal) fm anc
    = takeRef (val_main_v15 (F := Ideal) fm) (val_main_v31 (F := Ideal) anc) := by
  unfold val_main_v33 val_main_v32 val_main_call3_v14 val_main_call3_v15 val_main_call3_cst val_main_call3_v13 val_main_call3_v12
      val_main_call3_c_3 val_main_call3_v11 val_main_call3_v10 val_main_call3_v9 val_main_call3_v8 val_main_call3_c_1
      val_main_call3_v7 val_main_call3_v6 val_main_call3_c_2 val_main_call3_v5 val_main_call3_v4 val_main_call3_v3
      val_main_call3_v2 val_main_call3_c_0 val_main_call3_v1 val_main_call3_v0 val_main_call3_c
    takeRef inRange wrapped
  rfl

/-- The third gather (index array `val_main_v31`). -/
theorem take3_at (b : Fin 32) (n : Fin 2048) (c : Fin 256)
    (hk : 0 ≤ (val_main_v31 (F := Ideal) anc (ix3 b (0 : Fin 1) n)).toInt ∧ (val_main_v31 (F := Ideal) anc (ix3 b (0 : Fin 1) n)).toInt ≤ 4095) :
    val_main_v33 (F := Ideal) fm anc (ix3 b n c) = row fm b c (pick (val_main_v31 (F := Ideal) anc (ix3 b (0 : Fin 1) n))) := by
  rw [v33_eq, takeRef_at _ _ b n c hk, v15_row]

/-- The fourth call is `takeRef` of the reshaped feature map and the fourth index array. -/
theorem v39_eq : val_main_v39 (F := Ideal) fm anc
    = takeRef (val_main_v15 (F := Ideal) fm) (val_main_v37 (F := Ideal) anc) := by
  unfold val_main_v39 val_main_v38 val_main_call4_v14 val_main_call4_v15 val_main_call4_cst val_main_call4_v13 val_main_call4_v12
      val_main_call4_c_3 val_main_call4_v11 val_main_call4_v10 val_main_call4_v9 val_main_call4_v8 val_main_call4_c_1
      val_main_call4_v7 val_main_call4_v6 val_main_call4_c_2 val_main_call4_v5 val_main_call4_v4 val_main_call4_v3
      val_main_call4_v2 val_main_call4_c_0 val_main_call4_v1 val_main_call4_v0 val_main_call4_c
    takeRef inRange wrapped
  rfl

/-- The fourth gather (index array `val_main_v37`). -/
theorem take4_at (b : Fin 32) (n : Fin 2048) (c : Fin 256)
    (hk : 0 ≤ (val_main_v37 (F := Ideal) anc (ix3 b (0 : Fin 1) n)).toInt ∧ (val_main_v37 (F := Ideal) anc (ix3 b (0 : Fin 1) n)).toInt ≤ 4095) :
    val_main_v39 (F := Ideal) fm anc (ix3 b n c) = row fm b c (pick (val_main_v37 (F := Ideal) anc (ix3 b (0 : Fin 1) n))) := by
  rw [v39_eq, takeRef_at _ _ b n c hk, v15_row]

end Cert.ReferenceIdeal.Take

end
-- ==== Proof.RefValue.lean ====
/-
  The reference's result is the sampled feature map.

  The reference reads the four corner pixels of each query (its four gathers, in the order left-top, right-bottom,
  left-bottom, right-top) and interpolates: `t = lt + (rt − lt)·dx` on the top edge, `bt = lb + (rb − lb)·dx` on the bottom
  edge, then `t + (bt − t)·dy`, with `dx`, `dy` the anchor's offsets inside its cell broadcast along the channels.  Every
  corner's flat pixel number lies in `[0, 4095]`, so each gather returns exactly the feature map's pixel; what is left is
  the specification's `sample`, term for term.
-/
import proofs.«163682_j5995774345370_1_alg».proof.Proof.RefRead
import proofs.«163682_j5995774345370_1_alg».proof.Proof.RefCoords
import proofs.«163682_j5995774345370_1_alg».proof.Proof.RefTake
import proofs.«163682_j5995774345370_1_alg».proof.Proof.Coords
import Idealize.ShloMosaic.Lib.ValueIdx

noncomputable section

namespace Cert.ReferenceIdeal.Ref

open Cert.ReferenceIdeal Cert.ReferenceIdeal.ReadP Idealize.ShloMosaic Idealize.ShloMosaic.ValueIdx Cert.Bilinear

variable (fm : S32x256x64x64.Idx → EReal) (anc : S32x2048x2.Idx → EReal)

/-- The x offset broadcast along the channels (its first use, on the top edge). -/
theorem dx_top (b : Fin 32) (n : Fin 2048) (c : Fin 256) :
    val_main_v44 (F := Ideal) anc (ix3 b n c) = frac (anc (ix3 b n (0 : Fin 2))) := by
  rw [val_main_v44_apply, val_main_v43_apply]
  have e : idx_main_v43 (idx_main_v44 (ix3 b n c)) = ix3 b n (0 : Fin 2) :=
    funext fun a => Fin.ext (by match a with | ⟨0, _⟩ => rfl | ⟨1, _⟩ => rfl | ⟨2, _⟩ => rfl)
  rw [e, Coords.off_at]

/-- The x offset again (its second use, on the bottom edge). -/
theorem dx_bottom (b : Fin 32) (n : Fin 2048) (c : Fin 256) :
    val_main_v49 (F := Ideal) anc (ix3 b n c) = frac (anc (ix3 b n (0 : Fin 2))) := by
  rw [val_main_v49_apply, val_main_v48_apply]
  have e : idx_main_v48 (idx_main_v49 (ix3 b n c)) = ix3 b n (0 : Fin 2) :=
    funext fun a => Fin.ext (by match a with | ⟨0, _⟩ => rfl | ⟨1, _⟩ => rfl | ⟨2, _⟩ => rfl)
  rw [e, Coords.off_at]

/-- The y offset broadcast along the channels. -/
theorem dy_all (b : Fin 32) (n : Fin 2048) (c : Fin 256) :
    val_main_v54 (F := Ideal) anc (ix3 b n c) = frac (anc (ix3 b n (1 : Fin 2))) := by
  rw [val_main_v54_apply, val_main_v53_apply]
  have e : idx_main_v53 (idx_main_v54 (ix3 b n c)) = ix3 b n (1 : Fin 2) :=
    funext fun a => Fin.ext (by match a with | ⟨0, _⟩ => rfl | ⟨1, _⟩ => rfl | ⟨2, _⟩ => rfl)
  rw [e, Coords.off_at]

/-- The reference's result array is `G` of its two arguments. -/
theorem ref_value : val_main_v56 (F := Ideal) fm anc = G fm anc := by
  funext i
  obtain ⟨b, n, c, rfl⟩ : ∃ (b : Fin 32) (n : Fin 2048) (c : Fin 256), i = ix3 b n c := ⟨i 0, i 1, i 2, eq_ix3 i⟩
  have hLT := Coords.kLT_at anc b n
  have hRB := Coords.kRB_at anc b n
  have hLB := Coords.kLB_at anc b n
  have hRT := Coords.kRT_at anc b n
  have t1 := Take.take1_at fm anc b n c (by rw [hLT]; exact cLT_toInt _ _)
  have t2 := Take.take2_at fm anc b n c (by rw [hRB]; exact cRB_toInt _ _)
  have t3 := Take.take3_at fm anc b n c (by rw [hLB]; exact cLB_toInt _ _)
  have t4 := Take.take4_at fm anc b n c (by rw [hRT]; exact cRT_toInt _ _)
  rw [hLT] at t1; rw [hRB] at t2; rw [hLB] at t3; rw [hRT] at t4
  show val_main_v56 (F := Ideal) fm anc (ix3 b n c)
      = sample (row fm b c) (anc (ix3 b n (0 : Fin 2))) (anc (ix3 b n (1 : Fin 2)))
  rw [val_main_v56_apply, val_main_v55_apply, val_main_v52_apply, val_main_v51_apply, val_main_v50_apply,
    val_main_v47_apply, val_main_v46_apply, val_main_v45_apply, val_main_v42_apply]
  rw [t1, t2, t3, t4, dx_top anc b n c, dx_bottom anc b n c, dy_all anc b n c]
  rfl

end Cert.ReferenceIdeal.Ref

end
-- ==== Proof.lean ====
/-
  Bilinear sampling of a feature map: the kernel against the reference.

  Both programs scale each query's anchor to pixel coordinates clipped to the 64 × 64 plane, take the floor and the ceiling of
  each coordinate, and combine the four corner pixels of every channel with the bilinear weights.  The reference gathers the
  four pixels and interpolates along x, then along y.  The kernel never gathers: per block of 256 queries it builds a
  4096 × 256 matrix holding, in column `n`, each corner's weight in the row of that corner's flat pixel number, and multiplies
  it into the batch's 256 × 4096 feature rows.  Over the extended reals a one-hot row picks its pixel out of the sum, and
  `(1−dx)(1−dy)·lt + dx(1−dy)·rt + (1−dx)dy·lb + dx·dy·rb` is `t + (b − t)·dy` with `t = lt + (rt − lt)·dx`,
  `b = lb + (rb − lb)·dx`: distributivity, which holds because the precondition makes every feature value a real number
  (the weights are real whatever the anchors are: the clip's bounds are).  Every corner's flat pixel number lies in
  `[0, 4095]`, so the reference's gathers neither wrap, clamp nor fill.

  The three frames: the two kernel programs' are the generated frame certificates; the reference's is its run with the result
  dropped.  The idealized kernel is the kernel's own text read at the ideal instance (no rewrite to account for).  For the
  value claim both runs end at the same function `Cert.Bilinear.G` of the argument arrays.
-/
import proofs.«163682_j5995774345370_1_alg».proof.Defs
import proofs.«163682_j5995774345370_1_alg».proof.Proof.Gen.Kernel
import proofs.«163682_j5995774345370_1_alg».proof.Proof.Gen.Kernel.Frame
import proofs.«163682_j5995774345370_1_alg».proof.Proof.Gen.KernelIdeal
import proofs.«163682_j5995774345370_1_alg».proof.Proof.Gen.KernelIdeal.Frame
import proofs.«163682_j5995774345370_1_alg».proof.Proof.Gen.KernelIdeal.Value
import proofs.«163682_j5995774345370_1_alg».proof.Proof.Gen.ReferenceIdeal
import proofs.«163682_j5995774345370_1_alg».proof.Proof.Gen.Pre_finite_inputs
import proofs.«163682_j5995774345370_1_alg».proof.Proof.RefRun
import proofs.«163682_j5995774345370_1_alg».proof.Proof.RefRead
import proofs.«163682_j5995774345370_1_alg».proof.Proof.Coords
import proofs.«163682_j5995774345370_1_alg».proof.Proof.Finite
import proofs.«163682_j5995774345370_1_alg».proof.Proof.KernelValue
import proofs.«163682_j5995774345370_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.ValueP.run (F := Ideal) m ρ)

/-- Both runs end with the result array at `G` of the (agreeing) argument arrays. -/
theorem algebraic : Cert.algebraic_KernelIdeal_ReferenceIdeal := by
  intro m ρ m' ρ' hpre hagree
  refine ⟨fun c => Cert.Bilinear.G (Cert.KernelIdeal.Host.fmArr m c) (Cert.KernelIdeal.Host.ancArr m c),
    Cert.KernelIdeal.Result.run m ρ (fun c i => Cert.Finite.fm_real _ _ (hpre c) i), ?_⟩
  refine (θ_run Cert.ReferenceIdeal.defs _ _).mono (fun _ h c => ⟨?_, (h c).2⟩)
    (Cert.ReferenceIdeal.ValueP.run (F := Ideal) m' ρ')
  rw [(h c).1, Cert.ReferenceIdeal.ReadP.val_main_v56_eq, Cert.ReferenceIdeal.Ref.ref_value, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
